-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_v29 : IVec S_ 1) (main_v33 : IVec S800000 1) (main_c_11 : IVec S_ 1) : IVec S_ 1 :=
  let main_v34 : IVec S_ 1 := (fun x v => Host.reduce IntOp.andi x v reducesTo_S800000_S_d0 h_S_) main_v33 main_c_11
  let main_v35 : IVec S_ 1 := andi main_v29 main_v34
  main_v35

def fn_part1 {F : FTy → Type} [FloatOps F] (main_arg1 : IVec S2x800000 32) (main_arg5 : FVec F S47 .f32) (main_v13 : IVec S_ 1) (main_v16 : IVec S128x47 1) : IVec S_ 1 :=
  let main_c_5 : IVec S_ 1 := constantI S_ 1 1#1
  let main_v17 : IVec S_ 1 := (fun x v => Host.reduce IntOp.andi x v reducesTo_S128x47_S_d0_1 h_S_) main_v16 main_c_5
  let main_v18 : IVec S_ 1 := andi main_v13 main_v17
  let main_v19 : FVec F S47 .f32 := Host.absf main_arg5
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  let main_v24 : IVec S1x800000 32 := (extractStridedSlice S1x800000 ![0, 0] · slices_S2x800000_S1x800000_0_0) main_arg1
  let main_v25 : IVec S800000 32 := shapeCast S800000 main_v24 shapeCasts_S1x800000_S800000
  let main_c_8 : IVec S_ 32 := constantI S_ 32 4294917296#32
  let main_v26 : IVec S800000 32 := broadcastInDim S800000 ![] bcast_S_S800000 main_c_8
  let main_v27 : IVec S800000 1 := cmpi .sge main_v25 main_v26
  let main_c_9 : IVec S_ 1 := constantI S_ 1 1#1
  let main_v28 : IVec S_ 1 := (fun x v => Host.reduce IntOp.andi x v reducesTo_S800000_S_d0 h_S_) main_v27 main_c_9
  let main_v29 : IVec S_ 1 := andi main_v23 main_v28
  let main_v30 : IVec S1x800000 32 := (extractStridedSlice S1x800000 ![0, 0] · slices_S2x800000_S1x800000_0_0) main_arg1
  let main_v31 : IVec S800000 32 := shapeCast S800000 main_v30 shapeCasts_S1x800000_S800000
  let main_c_10 : IVec S_ 32 := constantI S_ 32 50000#32
  let main_v32 : IVec S800000 32 := broadcastInDim S800000 ![] bcast_S_S800000 main_c_10
  let main_v33 : IVec S800000 1 := cmpi .slt main_v31 main_v32
  let main_c_11 : IVec S_ 1 := constantI S_ 1 1#1
  fn_part2 (F := F) main_v29 main_v33 main_c_11

def fn {F : FTy → Type} [FloatOps F] (main_arg0 : FVec F S50000x128 .f32) (main_arg1 : IVec S2x800000 32) (main_arg2 : FVec F S128x128 .f32) (main_arg3 : FVec F S128 .f32) (main_arg4 : FVec F S128x47 .f32) (main_arg5 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x47 .f32 := Host.absf main_arg4
  let main_cst_4 : FVec F S_ .f32 := constant S_ .f32 0x7F800000#32
  let main_v15 : FVec F S128x47 .f32 := broadcastInDim S128x47 ![] bcast_S_S128x47 main_cst_4
  let main_v16 : IVec S128x47 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S50000x47 : Shape := ⟨2, ![50000, 47]⟩
abbrev S5000x47 : Shape := ⟨2, ![5000, 47]⟩
abbrev S800000x47 : Shape := ⟨2, ![800000, 47]⟩
abbrev S1x47 : Shape := ⟨2, ![1, 47]⟩

abbrev nBuf : Space → Nat
  | .hbm => 94
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x47, .f32⟩
  | .hbm, ⟨5, _⟩ => ⟨S47, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S1, .i32⟩
  | .hbm, ⟨41, _⟩ => ⟨S_, .i32⟩
  | .hbm, ⟨42, _⟩ => ⟨S800000x1, .i32⟩
  | .hbm, ⟨43, _⟩ => ⟨S800000x1, .i1⟩
  | .hbm, ⟨44, _⟩ => ⟨S1x1, .i32⟩
  | .hbm, ⟨45, _⟩ => ⟨S800000x1, .i32⟩
  | .hbm, ⟨46, _⟩ => ⟨S800000x1, .i1⟩
  | .hbm, ⟨47, _⟩ => ⟨S800000x1, .i1⟩
  | .hbm, ⟨48, _⟩ => ⟨S_, .i1⟩
  | .hbm, ⟨49, _⟩ => ⟨S800000, .i1⟩
  | .hbm, ⟨50, _⟩ => ⟨S800000x128, .f32⟩
  | .hbm, ⟨51, _⟩ => ⟨S800000x128, .i1⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x1, .f32⟩
  | .hbm, ⟨60, _⟩ => ⟨S1x128, .f32⟩
  | .hbm, ⟨61, _⟩ => ⟨S50000x128, .f32⟩
  | .hbm, ⟨62, _⟩ => ⟨S50000x1, .f32⟩
  | .hbm, ⟨63, _⟩ => ⟨S50000x47, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S1, .i32⟩
  | .hbm, ⟨73, _⟩ => ⟨S_, .i32⟩
  | .hbm, ⟨74, _⟩ => ⟨S800000x1, .i32⟩
  | .hbm, ⟨75, _⟩ => ⟨S800000x1, .i1⟩
  | .hbm, ⟨76, _⟩ => ⟨S1x1, .i32⟩
  | .hbm, ⟨77, _⟩ => ⟨S800000x1, .i32⟩
  | .hbm, ⟨78, _⟩ => ⟨S800000x1, .i1⟩
  | .hbm, ⟨79, _⟩ => ⟨S800000x1, .i1⟩
  | .hbm, ⟨80, _⟩ => ⟨S_, .i1⟩
  | .hbm, ⟨81, _⟩ => ⟨S800000, .i1⟩
  | .hbm, ⟨82, _⟩ => ⟨S800000x47, .f32⟩
  | .hbm, ⟨83, _⟩ => ⟨S800000x47, .i1⟩
  | .hbm, ⟨84, _⟩ => ⟨S_, .f32⟩
  | .hbm, ⟨85, _⟩ => ⟨S800000x47, .f32⟩
  | .hbm, ⟨86, _⟩ => ⟨S800000x47, .f32⟩
  | .hbm, ⟨87, _⟩ => ⟨S_, .f32⟩
  | .hbm, ⟨88, _⟩ => ⟨S50000x47, .f32⟩
  | .hbm, ⟨89, _⟩ => ⟨S800000x1, .i32⟩
  | .hbm, ⟨90, _⟩ => ⟨S50000x47, .f32⟩
  | .hbm, ⟨91, _⟩ => ⟨S50000x1, .f32⟩
  | .hbm, ⟨92, _⟩ => ⟨S1x47, .f32⟩
  | .hbm, ⟨93, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x47, .f32⟩
  | .local _ .vmem, ⟨19, _⟩ => ⟨S5000x47, .f32⟩
  | .local _ .vmem, ⟨20, _⟩ => ⟨S5000x47, .f32⟩
  | .local _ .vmem, ⟨21, _⟩ => ⟨S5000x47, .f32⟩
  | .local _ .vmem, ⟨22, _⟩ => ⟨S5000x47, .f32⟩
  | .local _ .vmem, ⟨23, _⟩ => ⟨S5000x1, .f32⟩
  | .local _ .vmem, ⟨24, _⟩ => ⟨S5000x1, .f32⟩
  | .local _ .vmem, ⟨25, _⟩ => ⟨S1x47, .f32⟩
  | .local _ .vmem, ⟨26, _⟩ => ⟨S5000x47, .f32⟩
  | .local _ .vmem, ⟨27, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v17 : Ref sig .tc := ⟨.hbm, 54, rfl⟩
abbrev main_cst_4 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v26 : Ref sig .tc := ⟨.hbm, 86, rfl⟩
abbrev main_cst_5 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x47 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x47 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x47 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x47 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x47_S128x47_0_0 : ∀ a, (![0, 0] : Fin 2 → Nat) a + S128x47.size a ≤ S128x47.size a
  h_S128x47 : 0 < S128x47.numel
  inb_S5000x47_S5000x47_0_0 : ∀ a, (![0, 0] : Fin 2 → Nat) a + S5000x47.size a ≤ S5000x47.size a
  h_S5000x47 : 0 < S5000x47.numel
  bcast_S800000_S800000x47_0 : S800000.BroadcastsInDim S800000x47 (![0] : Fin 1 → Fin S800000x47.rank)
  bcast_S_S800000x47 : S_.BroadcastsInDim S800000x47 (![] : Fin 0 → Fin S800000x47.rank)
  bcast_S_S50000x47 : S_.BroadcastsInDim S50000x47 (![] : Fin 0 → Fin S50000x47.rank)
  shapeCasts_S47_S1x47 : S47.ShapeCasts S1x47
  shapeCasts_S5000x47_S5000x47 : S5000x47.ShapeCasts S5000x47
  broadcasts_S5000x1_S5000x47 : S5000x1.Broadcasts S5000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x47_S5000x47_1_0_0_1_n_n_wf : DotDims.WF S5000x128 S128x47 S5000x47 [1] [0] [0] [1] [] []
  gather_S50000x47_S800000x1_S800000x47_1_0_n_n_0_1_147_wf : GatherDims.WF S50000x47 S800000x1 S800000x47 [1] [0] [] [0] [] 1 ![1, 47]
  scatter_S50000x47_S800000x1_S800000x47_1_0_0_1_wf : ScatterDims.WF S50000x47 S800000x1 S800000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x47.size a ≤ S50000x47.size a
  hwx2_3 : ∀ i : grid2.Coords, EltTy.bits .f32 = 32 ∨ (Rect.block (s := S50000x47) S5000x47.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x47.size a ≤ S50000x47.size a
  hwx3_0 : ∀ i : grid3.Coords, EltTy.bits .f32 = 32 ∨ (Rect.block (s := S50000x47) S5000x47.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x47.size a ≤ S1x47.size a
  hwx3_2 : ∀ i : grid3.Coords, EltTy.bits .f32 = 32 ∨ (Rect.block (s := S1x47) S1x47.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x47.size a ≤ S50000x47.size a
  hwx3_3 : ∀ i : grid3.Coords, EltTy.bits .f32 = 32 ∨ (Rect.block (s := S50000x47) S5000x47.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf
def gather_S50000x47_S800000x1_S800000x47_1_0_n_n_0_1_147 : GatherDims S50000x47 S800000x1 S800000x47 where
  offsetDims := [1]
  collapsedSliceDims := [0]
  operandBatchingDims := []
  startIndicesBatchingDims := []
  startIndexMap := [0]
  indexVectorDim := 1
  sliceSizes := ![1, 47]
  wf := gather_S50000x47_S800000x1_S800000x47_1_0_n_n_0_1_147_wf
def scatter_S50000x47_S800000x1_S800000x47_1_0_0_1 : ScatterDims S50000x47 S800000x1 S800000x47 where
  updateWindowDims := [1]
  insertedWindowDims := [0]
  scatterDimsToOperandDims := [0]
  indexVectorDim := 1
  wf := scatter_S50000x47_S800000x1_S800000x47_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x47.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v29) S5000x47.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x47.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S5000x47.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x47 : Shape := ⟨2, ![50000, 47]⟩
abbrev S800000x47 : Shape := ⟨2, ![800000, 47]⟩
abbrev S1x47 : Shape := ⟨2, ![1, 47]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x47, .f32⟩
  | .hbm, ⟨5, _⟩ => ⟨S47, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S50000x47, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x47, .f32⟩
  | .hbm, ⟨69, _⟩ => ⟨S_, .f32⟩
  | .hbm, ⟨70, _⟩ => ⟨S50000x47, .f32⟩
  | .hbm, ⟨71, _⟩ => ⟨S800000x1, .i32⟩
  | .hbm, ⟨72, _⟩ => ⟨S50000x47, .f32⟩
  | .hbm, ⟨73, _⟩ => ⟨S50000x1, .f32⟩
  | .hbm, ⟨74, _⟩ => ⟨S50000x47, .f32⟩
  | .hbm, ⟨75, _⟩ => ⟨S50000x47, .f32⟩
  | .hbm, ⟨76, _⟩ => ⟨S1x47, .f32⟩
  | .hbm, ⟨77, _⟩ => ⟨S50000x47, .f32⟩
  | .hbm, ⟨78, _⟩ => ⟨S50000x47, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_cst : Ref sig .tc := ⟨.hbm, 53, rfl⟩
abbrev main_call2_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x47 : S_.BroadcastsInDim S50000x47 (![] : Fin 0 → Fin S50000x47.rank)
  bcast_S50000x1_S50000x47_0_1 : S50000x1.BroadcastsInDim S50000x47 (![0, 1] : Fin 2 → Fin S50000x47.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x47_S50000x47_1_0_0_1_n_n_wf : DotDims.WF S50000x128 S128x47 S50000x47 [1] [0] [0] [1] [] []
  gather_S50000x47_S800000x1_S800000x47_1_0_n_n_0_1_147_wf : GatherDims.WF S50000x47 S800000x1 S800000x47 [1] [0] [] [0] [] 1 ![1, 47]
  scatter_S50000x47_S800000x1_S800000x47_1_0_0_1_wf : ScatterDims.WF S50000x47 S800000x1 S800000x47 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf
def gather_S50000x47_S800000x1_S800000x47_1_0_n_n_0_1_147 : GatherDims S50000x47 S800000x1 S800000x47 where
  offsetDims := [1]
  collapsedSliceDims := [0]
  operandBatchingDims := []
  startIndicesBatchingDims := []
  startIndexMap := [0]
  indexVectorDim := 1
  sliceSizes := ![1, 47]
  wf := gather_S50000x47_S800000x1_S800000x47_1_0_n_n_0_1_147_wf
def scatter_S50000x47_S800000x1_S800000x47_1_0_0_1 : ScatterDims S50000x47 S800000x1 S800000x47 where
  updateWindowDims := [1]
  insertedWindowDims := [0]
  scatterDimsToOperandDims := [0]
  indexVectorDim := 1
  wf := scatter_S50000x47_S800000x1_S800000x47_1_0_0_1_wf

class Facts : Prop extends Facts₀ where

variable [Facts]
-- ==== Proof.Spec.lean ====
/-
  The two-layer graph convolution both programs compute, as one function of the six argument arrays.

  With s, d the two rows of the edge array (source and destination node of each edge), the out-degree and
  in-degree of a node are the number of edges leaving and entering it, and its two weights are
  deg^(-1/2) with the degree clamped below at 1. One layer sends node features X to

      (A · ((X ∘ w_src) · W)) ∘ w_dst + b,

  where w_src, w_dst scale rows, the product with W is the ordinary matrix product, and A sums, for every
  node v, the rows of its argument at the sources of the edges that enter v (a gather at the sources, negative
  sources counted from the end, followed by a sum into the destinations). The network is the first layer,
  max(·, 0), the second layer.

  Each piece is spelt with the host operations of the reference program, so that the reference's result is this
  function by unfolding; the pieces are separate definitions so that the kernel's regions and host stretches can
  be matched to them one at a time.
-/
import proofs.«410354_j42021960024156_1_alg».proof.Proof.Gen.ReferenceIdeal

noncomputable section

namespace Cert.GraphSpec

open Cert.ReferenceIdeal Cert.ReferenceIdeal.Gen Idealize.ShloMosaic

variable {F : FTy → Type} [FloatOps F]

/-- Row 0 of the edge array: each edge's source node. -/
def srcOf (e : IVec S2x800000 32) : IVec S800000 32 :=
  shapeCast _ (extractStridedSlice S1x800000 ![0, 0] e slices_S2x800000_S1x800000_0_0) shapeCasts_S1x800000_S800000

/-- Row 1 of the edge array: each edge's destination node. -/
def dstOf (e : IVec S2x800000 32) : IVec S800000 32 :=
  shapeCast _ (extractStridedSlice S1x800000 ![1, 0] e slices_S2x800000_S1x800000_1_0) shapeCasts_S1x800000_S800000

/-- The weight of every node for one end of the edges: the count of edges with that end at the node, clamped below
    at 1, to the power -1/2. -/
def normOf (i : IVec S800000 32) : FVec F S50000 .f32 :=
  Host.rsqrt (maximumf (broadcastInDim S50000 ![] bcast_S_S50000 (id (constant S_ .f32 0x3F800000#32)))
    (Host.scatterAdd scatter_S50000_S800000x1_S800000_n_0_0_1 (broadcastInDim S50000 ![] bcast_S_S50000 (constant S_ .f32 0x00000000#32))
      (broadcastInDim S800000x1 ![0] bcast_S800000_S800000x1_0 i)
      (broadcastInDim S800000 ![] bcast_S_S800000 (constant S_ .f32 0x3F800000#32))))

/-- The sources as row positions: a negative source counts from the end (50000 is added to it). -/
def wrapOf (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Rows scaled by the node weights, then the matrix product: 128 output columns. -/
def transform128 (x : FVec F S50000x128 .f32) (n : FVec F S50000 .f32) (W : FVec F S128x128 .f32) : FVec F S50000x128 .f32 :=
  Host.dotGeneral dot_S50000x128_S128x128_S50000x128_1_0_0_1_n_n none
    (mulf x (broadcastInDim S50000x128 ![0, 1] bcast_S50000x1_S50000x128_0_1 (broadcastInDim S50000x1 ![0] bcast_S50000_S50000x1_0 n))) W

/-- Rows scaled by the node weights, then the matrix product: 47 output columns. -/
def transform47 (x : FVec F S50000x128 .f32) (n : FVec F S50000 .f32) (W : FVec F S128x47 .f32) : FVec F S50000x47 .f32 :=
  Host.dotGeneral dot_S50000x128_S128x47_S50000x47_1_0_0_1_n_n none
    (mulf x (broadcastInDim S50000x128 ![0, 1] bcast_S50000x1_S50000x128_0_1 (broadcastInDim S50000x1 ![0] bcast_S50000_S50000x1_0 n))) W

/-- For every node, the sum of the rows of `h` at the sources of the edges entering it (128 columns). -/
def aggregate128 (h : FVec F S50000x128 .f32) (e : IVec S2x800000 32) : FVec F S50000x128 .f32 :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 (dstOf e))
    (Host.gather gather_S50000x128_S800000x1_S800000x128_1_0_n_n_0_1_1128 h (wrapOf (srcOf e)))

/-- For every node, the sum of the rows of `h` at the sources of the edges entering it (47 columns). -/
def aggregate47 (h : FVec F S50000x47 .f32) (e : IVec S2x800000 32) : FVec F S50000x47 .f32 :=
  Host.scatterAdd scatter_S50000x47_S800000x1_S800000x47_1_0_0_1 (broadcastInDim S50000x47 ![] bcast_S_S50000x47 (constant S_ .f32 0x00000000#32))
    (broadcastInDim S800000x1 ![0] bcast_S800000_S800000x1_0 (dstOf e))
    (Host.gather gather_S50000x47_S800000x1_S800000x47_1_0_n_n_0_1_147 h (wrapOf (srcOf e)))

/-- Rows scaled by the node weights, plus the bias row (128 columns). -/
def finish128 (a : FVec F S50000x128 .f32) (n : FVec F S50000 .f32) (b : FVec F S128 .f32) : FVec F S50000x128 .f32 :=
  addf (mulf a (broadcastInDim S50000x128 ![0, 1] bcast_S50000x1_S50000x128_0_1 (broadcastInDim S50000x1 ![0] bcast_S50000_S50000x1_0 n)))
    (broadcastInDim S50000x128 ![0, 1] bcast_S1x128_S50000x128_0_1 (broadcastInDim S1x128 ![1] bcast_S128_S1x128_1 b))

/-- Rows scaled by the node weights, plus the bias row (47 columns). -/
def finish47 (a : FVec F S50000x47 .f32) (n : FVec F S50000 .f32) (b : FVec F S47 .f32) : FVec F S50000x47 .f32 :=
  addf (mulf a (broadcastInDim S50000x47 ![0, 1] bcast_S50000x1_S50000x47_0_1 (broadcastInDim S50000x1 ![0] bcast_S50000_S50000x1_0 n)))
    (broadcastInDim S50000x47 ![0, 1] bcast_S1x47_S50000x47_0_1 (broadcastInDim S1x47 ![1] bcast_S47_S1x47_1 b))

/-- The maximum with zero, entry by entry. -/
def relu128 (v : FVec F S50000x128 .f32) : FVec F S50000x128 .f32 :=
  maximumf v (broadcastInDim S50000x128 ![] bcast_S_S50000x128 (constant S_ .f32 0x00000000#32))

/-- The first layer with its maximum with zero. -/
def hidden (x : FVec F S50000x128 .f32) (e : IVec S2x800000 32) (W1 : FVec F S128x128 .f32) (b1 : FVec F S128 .f32) : FVec F S50000x128 .f32 :=
  relu128 (finish128 (aggregate128 (transform128 x (normOf (srcOf e)) W1) e) (normOf (dstOf e)) b1)

/-- The whole network. -/
def network (x : FVec F S50000x128 .f32) (e : IVec S2x800000 32) (W1 : FVec F S128x128 .f32) (b1 : FVec F S128 .f32)
    (W2 : FVec F S128x47 .f32) (b2 : FVec F S47 .f32) : FVec F S50000x47 .f32 :=
  finish47 (aggregate47 (transform47 (hidden x e W1 b1) (normOf (srcOf e)) W2) e) (normOf (dstOf e)) b2

end Cert.GraphSpec

end
-- ==== Proof.KernelOps.lean ====
/-
  The kernel program's host stretches as functions, spelt with the kernel program's own operations, and each
  identified with the corresponding piece of the specification.

  Between its four regions the kernel's host code computes the same things as the reference, operation for
  operation: the two rows of the edge array, the two node-weight vectors, the sum into the destinations. The one
  place where the texts differ is the gather at the sources: the kernel's gather guards itself — it tests each
  (wrapped) source against the range 0 … 49999 and replaces the gathered row by a not-a-number pattern where the
  test fails — while the reference gathers directly. `gatherRows128` and `gatherRows47` are that guarded gather.
-/
import proofs.«410354_j42021960024156_1_alg».proof.Proof.Gen.KernelIdeal
import proofs.«410354_j42021960024156_1_alg».proof.Proof.Spec

noncomputable section

namespace Cert.KernelOps

open Cert.KernelIdeal Cert.KernelIdeal.Gen Idealize.ShloMosaic

variable {F : FTy → Type} [FloatOps F]

/-- Row 0 of the edge array. -/
def srcK (e : IVec S2x800000 32) : IVec S800000 32 :=
  shapeCast _ (extractStridedSlice S1x800000 ![0, 0] e slices_S2x800000_S1x800000_0_0) shapeCasts_S1x800000_S800000

/-- Row 1 of the edge array. -/
def dstK (e : IVec S2x800000 32) : IVec S800000 32 :=
  shapeCast _ (extractStridedSlice S1x800000 ![1, 0] e slices_S2x800000_S1x800000_1_0) shapeCasts_S1x800000_S800000

/-- The node weights for one end of the edges. -/
def normK (i : IVec S800000 32) : FVec F S50000 .f32 :=
  Host.rsqrt (maximumf (broadcastInDim S50000 ![] bcast_S_S50000 (id (constant S_ .f32 0x3F800000#32)))
    (Host.scatterAdd scatter_S50000_S800000x1_S800000_n_0_0_1 (broadcastInDim S50000 ![] bcast_S_S50000 (constant S_ .f32 0x00000000#32))
      (broadcastInDim S800000x1 ![0] bcast_S800000_S800000x1_0 i)
      (broadcastInDim S800000 ![] bcast_S_S800000 (constant S_ .f32 0x3F800000#32))))

/-- The sources as row positions, negative ones counted from the end. -/
def wrapK (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per edge, whether its row position lies in 0 … 49999. -/
def inRangeK (p : IVec S800000x1 32) : IVec S800000 1 :=
  Host.reduce IntOp.andi
    (andi (cmpi .sge p (broadcastInDim S800000x1 ![] bcast_S_S800000x1 (constantI S_ 32 0#32)))
      (cmpi .sle p (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The guarded gather of rows, 128 columns. -/
def gatherRows128 (h : FVec F S50000x128 .f32) (s : IVec S800000 32) : FVec F S800000x128 .f32 :=
  select (broadcastInDim S800000x128 ![0] bcast_S800000_S800000x128_0 (inRangeK (wrapK s)))
    (Host.gather gather_S50000x128_S800000x1_S800000x128_1_0_n_n_0_1_1128 h (wrapK s))
    (broadcastInDim S800000x128 ![] bcast_S_S800000x128 (constant S_ .f32 0x7FC00000#32))

/-- The guarded gather of rows, 47 columns. -/
def gatherRows47 (h : FVec F S50000x47 .f32) (s : IVec S800000 32) : FVec F S800000x47 .f32 :=
  select (broadcastInDim S800000x47 ![0] bcast_S800000_S800000x47_0 (inRangeK (wrapK s)))
    (Host.gather gather_S50000x47_S800000x1_S800000x47_1_0_n_n_0_1_147 h (wrapK s))
    (broadcastInDim S800000x47 ![] bcast_S_S800000x47 (constant S_ .f32 0x7FC00000#32))

/-- The sum of the gathered rows into the destinations, 128 columns. -/
def sumInto128 (g : FVec F S800000x128 .f32) (d : IVec S800000 32) : FVec F S50000x128 .f32 :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 d) g

/-- The sum of the gathered rows into the destinations, 47 columns. -/
def sumInto47 (g : FVec F S800000x47 .f32) (d : IVec S800000 32) : FVec F S50000x47 .f32 :=
  Host.scatterAdd scatter_S50000x47_S800000x1_S800000x47_1_0_0_1 (broadcastInDim S50000x47 ![] bcast_S_S50000x47 (constant S_ .f32 0x00000000#32))
    (broadcastInDim S800000x1 ![0] bcast_S800000_S800000x1_0 d) g

/-! ## The same functions as the specification's -/

theorem srcK_eq (e : IVec S2x800000 32) : srcK e = GraphSpec.srcOf e := rfl
theorem dstK_eq (e : IVec S2x800000 32) : dstK e = GraphSpec.dstOf e := rfl
theorem normK_eq (i : IVec S800000 32) : normK (F := F) i = GraphSpec.normOf i := rfl
theorem wrapK_eq (s : IVec S800000 32) : wrapK s = GraphSpec.wrapOf s := rfl

/-- Where the gather is unguarded, gathering and summing is the specification's aggregation. -/
theorem sumInto128_gather (h : FVec F S50000x128 .f32) (e : IVec S2x800000 32) :
    sumInto128 (Host.gather gather_S50000x128_S800000x1_S800000x128_1_0_n_n_0_1_1128 h (wrapK (srcK e))) (dstK e)
      = GraphSpec.aggregate128 h e := rfl
theorem sumInto47_gather (h : FVec F S50000x47 .f32) (e : IVec S2x800000 32) :
    sumInto47 (Host.gather gather_S50000x47_S800000x1_S800000x47_1_0_n_n_0_1_147 h (wrapK (srcK e))) (dstK e)
      = GraphSpec.aggregate47 h e := rfl

end Cert.KernelOps

end
-- ==== Proof.Reads.lean ====
/-
  What each host stretch of the kernel program leaves in the buffers it writes, as a function of the contents it
  starts from.

  The program's host code is cut by its four regions and by the calls it makes into ten stretches of operations.
  For a stretch `ops` and ANY contents `B` of the buffers before it, `after ops B` is the contents after it. Each
  lemma here reads one buffer a stretch writes: it is the stretch's operations applied to `B` at the buffers the
  stretch reads. The starting contents are a variable on purpose: every lemma is then a statement about a handful
  of operations, and the stretches are put one after the other elsewhere.
-/
import proofs.«410354_j42021960024156_1_alg».proof.Proof.Gen.KernelIdeal.Launch
import proofs.«410354_j42021960024156_1_alg».proof.Proof.KernelOps
import Idealize.ShloMosaic.Lib.StableHlo.Run
import Idealize.ShloMosaic.PureOps.Ideal

set_option maxRecDepth 16384

noncomputable section

namespace Cert.KernelIdeal.Reads

open Cert.KernelIdeal Cert.KernelIdeal.Gen Cert.KernelOps
open Idealize.ShloMosaic Idealize.ShloMosaic.TcCoe Idealize.SL.Sem Idealize.ShloMosaic.StableHlo

variable (B : Valuation τ sig (Elt Ideal))

-- the sum into the nodes, the gather and the reduction over the edges are opaque operations throughout
attribute [local irreducible] Host.reduce Host.gather Host.scatterAdd

/-! ## A stretch may be read in pieces -/

theorem after_append (l₁ l₂ : List (HloOp τ sig (Elt Ideal))) (V : Valuation τ sig (Elt Ideal)) :
    after (l₁ ++ l₂) V = after l₂ (after l₁ V) := by
  induction l₁ generalizing V with
  | nil => rfl
  | cons op l₁ ih => simp only [List.cons_append, after_cons]; exact ih _

/-- The contents after a stretch are the contents after its tail, started from the contents after its head. -/
theorem after_take_drop (k : Nat) (ops : List (HloOp τ sig (Elt Ideal))) (V : Valuation τ sig (Elt Ideal)) :
    after ops V = after (ops.drop k) (after (ops.take k) V) := by
  rw [← after_append, List.take_append_drop]

/-- The edge counts per node for one end of the edges: ones summed into the nodes. -/
def countK (i : IVec S800000 32) : FVec Ideal S50000 .f32 :=
  Host.scatterAdd scatter_S50000_S800000x1_S800000_n_0_0_1 (broadcastInDim S50000 ![] bcast_S_S50000 (constant S_ .f32 0x00000000#32))
    (broadcastInDim S800000x1 ![0] bcast_S800000_S800000x1_0 i)
    (broadcastInDim S800000 ![] bcast_S_S800000 (constant S_ .f32 0x3F800000#32))

/-- The clamp below at a scalar: the maximum with its broadcast. -/
def clampK (lo : FVec Ideal S_ .f32) (v : FVec Ideal S50000 .f32) : FVec Ideal S50000 .f32 :=
  maximumf (broadcastInDim S50000 ![] bcast_S_S50000 (id lo)) v

/-- The node weights are the clamped counts to the power -1/2. -/
theorem normK_eq_count (i : IVec S800000 32) :
    normK (F := Ideal) i = Host.rsqrt (clampK (constant S_ .f32 0x3F800000#32) (countK i)) := rfl

/-! ## The first stretch: the rows of the edge array, the two counts, the constant one -/

theorem first_src : after (hostOps0 (F := Ideal)) B (Proc.devRef .tc main_v1) = srcK (B (Proc.devRef .tc main_arg1)) := by
  dsimp only [hostOps0]
  after_results
  first | done | rfl

theorem first_dst : after (hostOps0 (F := Ideal)) B (Proc.devRef .tc main_v3) = dstK (B (Proc.devRef .tc main_arg1)) := by
  dsimp only [hostOps0]
  after_results
  first | done | rfl

theorem first_countSrc : after (hostOps0 (F := Ideal)) B (Proc.devRef .tc main_v7) = countK (srcK (B (Proc.devRef .tc main_arg1))) := by
  dsimp only [hostOps0]
  after_results
  first | done | rfl

theorem first_countDst : after (hostOps0 (F := Ideal)) B (Proc.devRef .tc main_v10) = countK (dstK (B (Proc.devRef .tc main_arg1))) := by
  dsimp only [hostOps0]
  after_results
  first | done | rfl

theorem first_one : after (hostOps0 (F := Ideal)) B (Proc.devRef .tc main_cst_2) = constant (F := Ideal) S_ .f32 0x3F800000#32 := by
  dsimp only [hostOps0]
  after_results
  first | done | rfl

/-! ## The clamps and the inverse square roots -/

theorem clampSrc : after (hostOps0_1 (F := Ideal)) B (Proc.devRef .tc main_v11)
    = clampK (B (Proc.devRef .tc main_cst_2)) (B (Proc.devRef .tc main_v7)) := by
  dsimp only [hostOps0_1]
  after_results
  first | done | rfl

theorem weightSrc : after (hostOps0_2 (F := Ideal)) B (Proc.devRef .tc main_v12)
    = Host.rsqrt (F := Ideal) (s := S50000) (φ := .f32) (B (Proc.devRef .tc main_v11)) := by
  dsimp only [hostOps0_2]
  after_results
  first | done | rfl

theorem second_one : after (hostOps0_2 (F := Ideal)) B (Proc.devRef .tc main_cst_3) = constant (F := Ideal) S_ .f32 0x3F800000#32 := by
  dsimp only [hostOps0_2]
  after_results
  first | done | rfl

theorem clampDst : after (hostOps0_3 (F := Ideal)) B (Proc.devRef .tc main_v13)
    = clampK (B (Proc.devRef .tc main_cst_3)) (B (Proc.devRef .tc main_v10)) := by
  dsimp only [hostOps0_3]
  after_results
  first | done | rfl

theorem weightDst : after (hostOps0_4 (F := Ideal)) B (Proc.devRef .tc main_v14)
    = Host.rsqrt (F := Ideal) (s := S50000) (φ := .f32) (B (Proc.devRef .tc main_v13)) := by
  dsimp only [hostOps0_4]
  after_results
  first | done | rfl

theorem columnSrc : after (hostOps0_4 (F := Ideal)) B (Proc.devRef .tc main_v15)
    = shapeCast S50000x1 (B (Proc.devRef .tc main_v12)) shapeCasts_S50000_S50000x1 := by
  dsimp only [hostOps0_4]
  after_results
  first | done | rfl

/-! ## Between the regions: the guarded gather, the sum into the destinations, the reshapes -/

/-! ### The stretch with the guarded gather of 128 columns, in pieces

The stretch is one inlined call of twenty-three operations. It is read in four pieces, cut after its eighth, sixteenth
and eighteenth operation — the wrapped sources; the two compares and their conjunction; the conjunction reduced; the
gather and the choice — each over the contents it starts from, and the pieces are then put one after the other. -/

/-- First piece: the sources wrapped and laid out as a column of row positions. -/
theorem gathered128_wrap : after (((hostOps1 (F := Ideal)).take 18).take 8) B (Proc.devRef .tc main_call2_v5) = wrapK (B (Proc.devRef .tc main_v1)) := by
  simp only [hostOps1, List.take_succ_cons, List.take_zero, List.drop_succ_cons, List.drop_zero]
  after_results
  first | done | rfl

theorem gathered128_wrap_keeps : after (((hostOps1 (F := Ideal)).take 18).take 8) B (Proc.devRef .tc main_v16) = B (Proc.devRef .tc main_v16) := by
  simp only [hostOps1, List.take_succ_cons, List.take_zero, List.drop_succ_cons, List.drop_zero]
  after_results

/-- Second piece: the two compares of the row positions against 0 and 49999, and their conjunction. -/
theorem gathered128_compare : after ((((hostOps1 (F := Ideal)).take 18).drop 8).take 8) B (Proc.devRef .tc main_call2_v11)
    = andi (cmpi .sge (B (Proc.devRef .tc main_call2_v5) : IVec S800000x1 32) (broadcastInDim S800000x1 ![] bcast_S_S800000x1 (constantI S_ 32 0#32)))
        (cmpi .sle (B (Proc.devRef .tc main_call2_v5) : IVec S800000x1 32) (broadcastInDim S800000x1 ![0, 1] bcast_S1x1_S800000x1_0_1 (broadcastInDim S1x1 ![1] bcast_S1_S1x1_1 (constantI S1 32 49999#32)))) := by
  simp only [hostOps1, List.take_succ_cons, List.take_zero, List.drop_succ_cons, List.drop_zero]
  after_results
  first | done | rfl

theorem gathered128_compare_keeps_pos : after ((((hostOps1 (F := Ideal)).take 18).drop 8).take 8) B (Proc.devRef .tc main_call2_v5) = B (Proc.devRef .tc main_call2_v5) := by
  simp only [hostOps1, List.take_succ_cons, List.take_zero, List.drop_succ_cons, List.drop_zero]
  after_results

theorem gathered128_compare_keeps : after ((((hostOps1 (F := Ideal)).take 18).drop 8).take 8) B (Proc.devRef .tc main_v16) = B (Proc.devRef .tc main_v16) := by
  simp only [hostOps1, List.take_succ_cons, List.take_zero, List.drop_succ_cons, List.drop_zero]
  after_results

/-- Third piece: the conjunction reduced over the one-element axis. -/
theorem gathered128_reduce : after ((((hostOps1 (F := Ideal)).take 18).drop 8).drop 8) B (Proc.devRef .tc main_call2_v12)
    = Host.reduce IntOp.andi (B (Proc.devRef .tc main_call2_v11) : IVec S800000x1 1) (constantI S_ 1 1#1) reducesTo_S800000x1_S800000_d1 h_S_ := by
  simp only [hostOps1, List.take_succ_cons, List.take_zero, List.drop_succ_cons, List.drop_zero]
  after_results
  first | done | rfl

theorem gathered128_reduce_keeps_pos : after ((((hostOps1 (F := Ideal)).take 18).drop 8).drop 8) B (Proc.devRef .tc main_call2_v5) = B (Proc.devRef .tc main_call2_v5) := by
  simp only [hostOps1, List.take_succ_cons, List.take_zero, List.drop_succ_cons, List.drop_zero]
  after_results

theorem gathered128_reduce_keeps : after ((((hostOps1 (F := Ideal)).take 18).drop 8).drop 8) B (Proc.devRef .tc main_v16) = B (Proc.devRef .tc main_v16) := by
  simp only [hostOps1, List.take_succ_cons, List.take_zero, List.drop_succ_cons, List.drop_zero]
  after_results

/-- Last piece: the gather, and the not-a-number pattern where the test failed. -/
theorem gathered128_select : after ((hostOps1 (F := Ideal)).drop 18) B (Proc.devRef .tc main_v17)
    = select (broadcastInDim S800000x128 ![0] bcast_S800000_S800000x128_0 (B (Proc.devRef .tc main_call2_v12)))
        (Host.gather (α := Ideal .f32) gather_S50000x128_S800000x1_S800000x128_1_0_n_n_0_1_1128 (B (Proc.devRef .tc main_v16)) (B (Proc.devRef .tc main_call2_v5)))
        (broadcastInDim S800000x128 ![] bcast_S_S800000x128 (constant (F := Ideal) S_ .f32 0x7FC00000#32)) := by
  simp only [hostOps1, List.take_succ_cons, List.take_zero, List.drop_succ_cons, List.drop_zero]
  after_results
  first | done | rfl

/-- The whole stretch: the guarded gather of the rows at the sources. -/
theorem gathered128 : after (hostOps1 (F := Ideal)) B (Proc.devRef .tc main_v17)
    = gatherRows128 (F := Ideal) (B (Proc.devRef .tc main_v16)) (B (Proc.devRef .tc main_v1)) := by
  rw [after_take_drop 18 hostOps1 B, gathered128_select, after_take_drop 8 (hostOps1.take 18) B,
    after_take_drop 8 ((hostOps1.take 18).drop 8) (after ((hostOps1.take 18).take 8) B),
    gathered128_reduce, gathered128_reduce_keeps_pos, gathered128_reduce_keeps, gathered128_compare, gathered128_compare_keeps_pos, gathered128_compare_keeps,
    gathered128_wrap, gathered128_wrap_keeps]
  rfl

theorem summed128 : after (hostOps1_1 (F := Ideal)) B (Proc.devRef .tc main_v20)
    = sumInto128 (F := Ideal) (B (Proc.devRef .tc main_v17)) (B (Proc.devRef .tc main_v3)) := by
  dsimp only [hostOps1_1]
  after_results
  first | done | rfl

theorem columnDst1 : after (hostOps1_1 (F := Ideal)) B (Proc.devRef .tc main_v21)
    = shapeCast S50000x1 (B (Proc.devRef .tc main_v14)) shapeCasts_S50000_S50000x1 := by
  dsimp only [hostOps1_1]
  after_results
  first | done | rfl

theorem biasRow1 : after (hostOps1_1 (F := Ideal)) B (Proc.devRef .tc main_v22)
    = shapeCast S1x128 (B (Proc.devRef .tc main_arg3)) shapeCasts_S128_S1x128 := by
  dsimp only [hostOps1_1]
  after_results
  first | done | rfl

theorem columnSrc2 : after (hostOps2 (F := Ideal)) B (Proc.devRef .tc main_v24)
    = shapeCast S50000x1 (B (Proc.devRef .tc main_v12)) shapeCasts_S50000_S50000x1 := by
  dsimp only [hostOps2]
  after_results
  first | done | rfl

/-! ### The stretch with the guarded gather of 47 columns, in the same pieces -/

/-- First piece: the sources wrapped and laid out as a column of row positions. -/
theorem gathered47_wrap : after (((hostOps3 (F := Ideal)).take 18).take 8) B (Proc.devRef .tc main_call3_v5) = wrapK (B (Proc.devRef .tc main_v1)) := by
  simp only [hostOps3, List.take_succ_cons, List.take_zero, List.drop_succ_cons, List.drop_zero]
  after_results
  first | done | rfl

theorem gathered47_wrap_keeps : after (((hostOps3 (F := Ideal)).take 18).take 8) B (Proc.devRef .tc main_v25) = B (Proc.devRef .tc main_v25) := by
  simp only [hostOps3, List.take_succ_cons, List.take_zero, List.drop_succ_cons, List.drop_zero]
  after_results

/-- Second piece: the two compares of the row positions against 0 and 49999, and their conjunction. -/
theorem gathered47_compare : after ((((hostOps3 (F := Ideal)).take 18).drop 8).take 8) B (Proc.devRef .tc main_call3_v11)
    = andi (cmpi .sge (B (Proc.devRef .tc main_call3_v5) : IVec S800000x1 32) (broadcastInDim S800000x1 ![] bcast_S_S800000x1 (constantI S_ 32 0#32)))
        (cmpi .sle (B (Proc.devRef .tc main_call3_v5) : IVec S800000x1 32) (broadcastInDim S800000x1 ![0, 1] bcast_S1x1_S800000x1_0_1 (broadcastInDim S1x1 ![1] bcast_S1_S1x1_1 (constantI S1 32 49999#32)))) := by
  simp only [hostOps3, List.take_succ_cons, List.take_zero, List.drop_succ_cons, List.drop_zero]
  after_results
  first | done | rfl

theorem gathered47_compare_keeps_pos : after ((((hostOps3 (F := Ideal)).take 18).drop 8).take 8) B (Proc.devRef .tc main_call3_v5) = B (Proc.devRef .tc main_call3_v5) := by
  simp only [hostOps3, List.take_succ_cons, List.take_zero, List.drop_succ_cons, List.drop_zero]
  after_results

theorem gathered47_compare_keeps : after ((((hostOps3 (F := Ideal)).take 18).drop 8).take 8) B (Proc.devRef .tc main_v25) = B (Proc.devRef .tc main_v25) := by
  simp only [hostOps3, List.take_succ_cons, List.take_zero, List.drop_succ_cons, List.drop_zero]
  after_results

/-- Third piece: the conjunction reduced over the one-element axis. -/
theorem gathered47_reduce : after ((((hostOps3 (F := Ideal)).take 18).drop 8).drop 8) B (Proc.devRef .tc main_call3_v12)
    = Host.reduce IntOp.andi (B (Proc.devRef .tc main_call3_v11) : IVec S800000x1 1) (constantI S_ 1 1#1) reducesTo_S800000x1_S800000_d1 h_S_ := by
  simp only [hostOps3, List.take_succ_cons, List.take_zero, List.drop_succ_cons, List.drop_zero]
  after_results
  first | done | rfl

theorem gathered47_reduce_keeps_pos : after ((((hostOps3 (F := Ideal)).take 18).drop 8).drop 8) B (Proc.devRef .tc main_call3_v5) = B (Proc.devRef .tc main_call3_v5) := by
  simp only [hostOps3, List.take_succ_cons, List.take_zero, List.drop_succ_cons, List.drop_zero]
  after_results

theorem gathered47_reduce_keeps : after ((((hostOps3 (F := Ideal)).take 18).drop 8).drop 8) B (Proc.devRef .tc main_v25) = B (Proc.devRef .tc main_v25) := by
  simp only [hostOps3, List.take_succ_cons, List.take_zero, List.drop_succ_cons, List.drop_zero]
  after_results

/-- Last piece: the gather, and the not-a-number pattern where the test failed. -/
theorem gathered47_select : after ((hostOps3 (F := Ideal)).drop 18) B (Proc.devRef .tc main_v26)
    = select (broadcastInDim S800000x47 ![0] bcast_S800000_S800000x47_0 (B (Proc.devRef .tc main_call3_v12)))
        (Host.gather (α := Ideal .f32) gather_S50000x47_S800000x1_S800000x47_1_0_n_n_0_1_147 (B (Proc.devRef .tc main_v25)) (B (Proc.devRef .tc main_call3_v5)))
        (broadcastInDim S800000x47 ![] bcast_S_S800000x47 (constant (F := Ideal) S_ .f32 0x7FC00000#32)) := by
  simp only [hostOps3, List.take_succ_cons, List.take_zero, List.drop_succ_cons, List.drop_zero]
  after_results
  first | done | rfl

/-- The whole stretch: the guarded gather of the rows at the sources. -/
theorem gathered47 : after (hostOps3 (F := Ideal)) B (Proc.devRef .tc main_v26)
    = gatherRows47 (F := Ideal) (B (Proc.devRef .tc main_v25)) (B (Proc.devRef .tc main_v1)) := by
  rw [after_take_drop 18 hostOps3 B, gathered47_select, after_take_drop 8 (hostOps3.take 18) B,
    after_take_drop 8 ((hostOps3.take 18).drop 8) (after ((hostOps3.take 18).take 8) B),
    gathered47_reduce, gathered47_reduce_keeps_pos, gathered47_reduce_keeps, gathered47_compare, gathered47_compare_keeps_pos, gathered47_compare_keeps,
    gathered47_wrap, gathered47_wrap_keeps]
  rfl

theorem summed47 : after (hostOps3_1 (F := Ideal)) B (Proc.devRef .tc main_v29)
    = sumInto47 (F := Ideal) (B (Proc.devRef .tc main_v26)) (B (Proc.devRef .tc main_v3)) := by
  dsimp only [hostOps3_1]
  after_results
  first | done | rfl

theorem columnDst3 : after (hostOps3_1 (F := Ideal)) B (Proc.devRef .tc main_v30)
    = shapeCast S50000x1 (B (Proc.devRef .tc main_v14)) shapeCasts_S50000_S50000x1 := by
  dsimp only [hostOps3_1]
  after_results
  first | done | rfl

theorem biasRow3 : after (hostOps3_1 (F := Ideal)) B (Proc.devRef .tc main_v31)
    = shapeCast S1x47 (B (Proc.devRef .tc main_arg5)) shapeCasts_S47_S1x47 := by
  dsimp only [hostOps3_1]
  after_results
  first | done | rfl

end Cert.KernelIdeal.Reads

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.Region0.lean ====
/-
  Region 0 of the kernel: the first layer's first step. The grid has ten points; point t takes rows 5000 t … 5000 t + 4999
  of the feature array and of the one-column weight array, and the whole weight matrix, and writes to the same rows of the
  output the matrix product of the scaled rows with the matrix,

      Σ_{k < 128} (x(r, k) · w(r, 0)) · W(k, q),      q < 128.

  The product is taken into a zero accumulator and the casts in front of it are the identity over the extended reals. The
  ten blocks of rows tile the output, so the output array is that function of the three arrays at every entry. The
  specification spreads the weight vector along the rows, multiplies, and takes the host's matrix product: the same sum
  over the inner coordinate, with the weight column the reshaped vector.
-/
import proofs.«410354_j42021960024156_1_alg».proof.Proof.Gen.KernelIdeal.Frame
import proofs.«410354_j42021960024156_1_alg».proof.Proof.Spec
import proofs.«410354_j42021960024156_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

/-
  Region 0: the rows of the feature array scaled by the one-column weight array, times the matrix.

  The grid has 10 points. Point t sees rows 5000·t … 5000·t + 4999 of the features (a block of 5000 × 128), the same
  rows of the weight column (5000 × 1) and the whole 128 × 128 matrix, and leaves in the output's block, rows
  5000·t … again, the matrix product of (block ∘ column spread along each row) with the matrix, summed onto zero.
  The narrowing of the operands to the short float format is the identity on the extended reals. Hence the output
  array is, entry by entry,

      (r, q) ↦ Σ_{k < 128} (x(r, k) · w(r, 0)) · W(k, q),

  every row r lying in exactly the block of point r / 5000. The specification's transform is the host's product of
  (x ∘ the weights spread over the columns) with W: the same sum, the weight column being the reshape of the weight
  vector.
-/

namespace Cert.KernelIdeal.Region0

open Cert.KernelIdeal Cert.KernelIdeal.Gen
open Idealize.ShloMosaic.ValueIdx
open scoped BigOperators

/-! ## The closed form and the two sides at an index -/

/-- Rows of `x` scaled by the column `w`, then the product with `W`: entry (r, q) is the sum over the inner
    coordinate k of (x(r, k) · w(r, 0)) · W(k, q). -/
def scaledProduct (x : FVec Ideal S50000x128 .f32) (w : FVec Ideal S50000x1 .f32) (W : FVec Ideal S128x128 .f32) :
    FVec Ideal S50000x128 .f32 :=
  fun j => ∑ k : Fin 128, (x (ix2 (j 0) k) * w (ix2 (j 0) 0)) * W (ix2 k (j 1))

/-- The kernel's contraction pattern is the plain one: rows × inner by inner × columns. -/
theorem kernelDot_plain : dot_S5000x128_S128x128_S5000x128_1_0_0_1_n_n = DotDims.plain 5000 128 128 := rfl

/-- So is the host's. -/
theorem hostDot_plain :
    Cert.ReferenceIdeal.dot_S50000x128_S128x128_S50000x128_1_0_0_1_n_n = DotDims.plain 50000 128 128 := rfl

/-- A block of rows times its column spread along each row, at an index: the entry times its row's weight. -/
theorem scaledRows_apply (x0 : FVec Ideal S5000x128 .f32) (x1 : FVec Ideal S5000x1 .f32) (p : Fin 5000) (k : Fin 128) :
    mulf x0 (broadcastTo S5000x128 (shapeCast S5000x1 x1 shapeCasts_S5000x1_S5000x1) broadcasts_S5000x1_S5000x128) (ix2 p k)
      = x0 (ix2 p k) * x1 (ix2 p 0) := by
  rw [mulf_apply, shapeCast_self]
  refine congrArg (x0 (ix2 p k) * ·) ?_
  refine broadcastTo_apply x1 broadcasts_S5000x1_S5000x128 (ix2 p k) (ix2 p 0) (fun a => ?_)
  match a with
  | ⟨0, _⟩ => rfl
  | ⟨1, _⟩ => rfl

/-- What one grid point stores, at an index of its block: the narrowings are the identity, the product onto the
    zero accumulator is the sum over the inner coordinate. -/
theorem payload_apply (x0 : Vec Ideal S5000x128 .f32) (x1 : Vec Ideal S5000x1 .f32) (x2 : Vec Ideal S128x128 .f32)
    (p : Fin 5000) (q : Fin 128) :
    k0_pay1 (F := Ideal) x0 x1 x2 (ix2 p q) = ∑ k : Fin 128, (x0 (ix2 p k) * x1 (ix2 p 0)) * x2 (ix2 k q) := by
  unfold k0_pay1
  rw [kernelDot_plain]
  refine (Cert.LibPlainDot.matmul_zero_apply none _ _ (ix2 p q)).trans ?_
  refine Finset.sum_congr rfl fun k _ => ?_
  refine congrArg₂ (· * ·) ?_ rfl
  exact scaledRows_apply x0 x1 p k

/-- The specification's transform at an index: the host's product is the same sum, and the weight vector spread
    first to a column and then over the columns reads the row's weight. -/
theorem transform128_apply (x : FVec Ideal S50000x128 .f32) (n : FVec Ideal S50000 .f32) (W : FVec Ideal S128x128 .f32)
    (p : Fin 50000) (q : Fin 128) :
    GraphSpec.transform128 x n W (ix2 p q) = ∑ k : Fin 128, (x (ix2 p k) * n (ix1 p)) * W (ix2 k q) := by
  unfold GraphSpec.transform128
  rw [hostDot_plain]
  refine (Cert.LibPlainDot.dotGeneral_apply none .single _ W (ix2 p q)).trans ?_
  refine Finset.sum_congr rfl fun k _ => ?_
  refine congrArg₂ (· * ·) ?_ rfl
  rw [mulf_apply]
  refine congrArg (x (ix2 p k) * ·) ?_
  refine (broadcastInDim_apply _ _ _ (ix2 p k) (ix2 p 0) (fun a => ?_)).trans ?_
  · match a with
    | ⟨0, _⟩ => rfl
    | ⟨1, _⟩ => rfl
  · refine broadcastInDim_apply _ _ n (ix2 p 0) (ix1 p) (fun a => ?_)
    match a with
    | ⟨0, _⟩ => rfl

/-- The weight vector reshaped to a column, read in row p: entry p (both have row-major position p). -/
theorem column_apply (n : FVec Ideal S50000 .f32) (p : Fin 50000) :
    shapeCast S50000x1 n shapeCasts_S50000_S50000x1 (ix2 p 0) = n (ix1 p) := by
  refine shapeCast_apply n shapeCasts_S50000_S50000x1 (ix2 p 0) (ix1 p) ?_
  rw [Shape.rowMajor_val_two, Shape.rowMajor_val_one]
  show p.val = p.val * 1 + 0
  omega

/-- One grid point's stored block is the closed form on its rows: if the three loaded blocks are rows
    5000·t … of `x` and of `w` and the whole of `W`, the stored value at block index `j` is the closed form at the
    array index `i` that is `j` moved down by 5000·t rows. -/
theorem stored_eq (x : FVec Ideal S50000x128 .f32) (w : FVec Ideal S50000x1 .f32) (W : FVec Ideal S128x128 .f32)
    (x0 : Vec Ideal S5000x128 .f32) (x1 : Vec Ideal S5000x1 .f32) (x2 : Vec Ideal S128x128 .f32) (t : Nat)
    (hx0 : ∀ (y : S5000x128.Idx) (i : S50000x128.Idx), (i 0).val = t * 5000 + (y 0).val → (i 1).val = (y 1).val → x0 y = x i)
    (hx1 : ∀ (y : S5000x1.Idx) (i : S50000x1.Idx), (i 0).val = t * 5000 + (y 0).val → (i 1).val = (y 1).val → x1 y = w i)
    (hx2 : ∀ y : S128x128.Idx, x2 y = W y)
    (j : S5000x128.Idx) (i : S50000x128.Idx) (h0 : (i 0).val = t * 5000 + (j 0).val) (h1 : (i 1).val = (j 1).val) :
    k0_pay1 (F := Ideal) x0 x1 x2 j = scaledProduct x w W i := by
  obtain ⟨p, q, rfl⟩ : ∃ (p : Fin 5000) (q : Fin 128), j = ix2 p q := ⟨j 0, j 1, eq_ix2 j⟩
  rw [payload_apply]
  unfold scaledProduct
  refine Finset.sum_congr rfl fun k _ => ?_
  refine congrArg₂ (· * ·) (congrArg₂ (· * ·) ?_ ?_) ?_
  · exact hx0 (ix2 p k) (ix2 (i 0) k) h0 rfl
  · exact hx1 (ix2 p 0) (ix2 (i 0) 0) h0 rfl
  · rw [hx2]
    exact congrArg W (Shape.idx_ext₂ rfl h1.symm)

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The windows' index maps over the grid: at point t the features', the weights' and the output's block index is
    (t, 0), the matrix's (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point t is rows 5000·t … of the feature array. -/
theorem featureBlock_apply (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := blockIndex t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weights' block at point t is rows 5000·t … of the weight column. -/
theorem weightBlock_apply (c : Dev nD) (t : Fin cfg0.N) (y : S5000x1.Idx) (i : S50000x1.Idx)
    (h0 : (i 0).val = t.val * 5000 + (y 0).val) (h1 : (i 1).val = (y 1).val) :
    (iblk0 V c 1 t : Vec Ideal S5000x1 .f32) y = (V c main_v15 : S50000x1.Idx → EReal) i := by
  obtain ⟨-, -, e0, e1, -⟩ := blockIndex t
  unfold iblk0
  rw [View.read_apply]
  show V c main_v15 _ = V c main_v15 _
  congr 1
  funext a
  apply Fin.ext
  match a with
  | ⟨0, _⟩ => show win0_1.index t 0 * 5000 + 1 * (y 0).val = (i 0).val; rw [e0, h0]; omega
  | ⟨1, _⟩ => show win0_1.index t 1 * 1 + 1 * (y 1).val = (i 1).val; rw [e1, h1]; omega

/-- The matrix's block at every point is the whole matrix. -/
theorem matrixBlock_apply (c : Dev nD) (t : Fin cfg0.N) (y : S128x128.Idx) :
    (iblk0 V c 2 t : Vec Ideal S128x128 .f32) y = (V c main_arg2 : S128x128.Idx → EReal) y := by
  obtain ⟨-, -, -, -, e0, e1, -⟩ := blockIndex t
  unfold iblk0
  rw [View.read_apply]
  show V c main_arg2 _ = V c main_arg2 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- What point t writes back is block t of the closed form of the arrays as the region finds them. -/
theorem flushed_eq (c : Dev nD) (t : Fin cfg0.N) :
    (dat0 (F := Ideal) V c).flushed 3 t
      = ((cfg0.win 3).blk t).view.read (Elt Ideal) (scaledProduct (V c main_arg0) (V c main_v15) (V c main_arg2)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S5000x1) zeroOffsets,
    View.ld_unit_zero (S := S128x128) zeroOffsets]
  obtain ⟨-, -, -, -, -, -, e0, e1⟩ := blockIndex t
  funext j
  refine stored_eq (V c main_arg0) (V c main_v15) (V c main_arg2) (iblk0 V c 0 t) (iblk0 V c 1 t) (iblk0 V c 2 t) t.val
    (featureBlock_apply V c t) (weightBlock_apply V c t) (matrixBlock_apply V c t) _
    (((cfg0.win 3).blk t).view.emb j) ?_ ?_
  · show win0_3.index t 0 * 5000 + 1 * (j 0).val = t.val * 5000 + (j 0).val; rw [e0]; omega
  · show win0_3.index t 1 * 128 + 1 * (j 1).val = (j 1).val; rw [e1]; omega

/-- An index of the output array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every row r of the output lies in the block of point r / 5000, which is written back. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨-, -, -, -, -, -, e0, e1⟩ := blockIndex t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- The output array after the region: the closed form of the arrays as the region finds them. -/
theorem array_eq (c : Dev nD) :
    (dat0 (F := Ideal) V c).arrAt 3 cfg0.N = scaledProduct (V c main_arg0) (V c main_v15) (V c main_arg2) :=
  (dat0 V c).arrAt_eq_of_cover 3 (scaledProduct (V c main_arg0) (V c main_v15) (V c main_arg2))
    (fun t _ => flushed_eq V c t) covered

theorem value (c : Dev nD) (n : FVec Ideal S50000 .f32)
    (hn : V c main_v15 = shapeCast S50000x1 n shapeCasts_S50000_S50000x1) :
    (dat0 (F := Ideal) V c).arrAt 3 cfg0.N = GraphSpec.transform128 (V c main_arg0) n (V c main_arg2) := by
  rw [array_eq, hn]
  funext j
  obtain ⟨p, q, rfl⟩ : ∃ (p : Fin 50000) (q : Fin 128), j = ix2 p q := ⟨j 0, j 1, eq_ix2 j⟩
  rw [transform128_apply]
  unfold scaledProduct
  refine Finset.sum_congr rfl fun k _ => ?_
  refine congrArg₂ (· * ·) (congrArg₂ (· * ·) rfl ?_) rfl
  exact column_apply n p

end Cert.KernelIdeal.Region0

end
-- ==== Proof.Region1.lean ====
/-
  Region 1 of the kernel: the first layer's last step. The grid has ten points; point t takes rows 5000 t … 5000 t + 4999
  of the aggregated array, the same rows of the one-column weight array and the whole bias row, and writes to the same rows
  of the output, entry by entry,

      max (a(r, q) · w(r, 0) + β(0, q), 0).

  The ten blocks of rows tile the output, so the output array is that function of the three arrays at every entry. The
  specification spreads the weight vector along the rows and the bias vector down the rows and takes the same product,
  sum and maximum; with the weight column and the bias row the reshaped vectors, the two agree entry by entry, with no
  algebra: every operation is pointwise.
-/
import proofs.«410354_j42021960024156_1_alg».proof.Proof.Gen.KernelIdeal.Frame
import proofs.«410354_j42021960024156_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

variable (V : (c : Dev nD) → (b : Ref sig .tc) → Buf (Elt Ideal) ((c : Thread nD τ).loc b))

/-- A column broadcast along the row: entry (p, q) is the column's entry at row p. -/
theorem column_along_row (x : FVec Ideal S5000x1 .f32) (h : S5000x1.Broadcasts S5000x128) (p : Fin 5000) (q : Fin 128) :
    broadcastTo S5000x128 x h (ix2 p q) = x (ix2 p (0 : Fin 1)) := by
  refine broadcastTo_apply x h (ix2 p q) (ix2 p (0 : Fin 1)) fun ax => ?_
  match ax with
  | ⟨0, _⟩ => rfl
  | ⟨1, _⟩ => rfl

theorem pay_apply (x0 : Vec Ideal S5000x128 .f32) (x1 : Vec Ideal S5000x1 .f32) (x2 : Vec Ideal S1x128 .f32) (p : Fin 5000) (q : Fin 128) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  simp only [shapeCast_self]
  rw [maximumf_apply, addf_apply, mulf_apply, column_along_row, broadcastTo_1b_ab_apply, broadcast_apply]
  rfl

/-- The index-level function: the aggregated entry times its row's weight, plus its column's bias, maximum with zero. -/
def scaledShifted (a : FVec Ideal S50000x128 .f32) (n2 : FVec Ideal S50000x1 .f32) (b2 : FVec Ideal S1x128 .f32) :
    FVec Ideal S50000x128 .f32 :=
  fun j => max (a j * n2 (ix2 (j 0) (0 : Fin 1)) + b2 (ix2 (0 : Fin 1) (j 1))) (Ideal.ofBits .f32 0x00000000#32)

theorem scaledShifted_apply (a : FVec Ideal S50000x128 .f32) (n2 : FVec Ideal S50000x1 .f32) (b2 : FVec Ideal S1x128 .f32)
    (p : Fin 50000) (q : Fin 128) :
    scaledShifted a n2 b2 (ix2 p q)
      = max (a (ix2 p q) * n2 (ix2 p (0 : Fin 1)) + b2 (ix2 (0 : Fin 1) q)) (Ideal.ofBits .f32 0x00000000#32) := rfl

/-- The weights as a column: entry (p, 0) of the reshaped vector is the vector's entry p. -/
theorem column_of_vector (n : FVec Ideal S50000 .f32) (h : S50000.ShapeCasts S50000x1) (p : Fin 50000) (u : Fin 1) :
    shapeCast S50000x1 n h (ix2 p u) = n (ix1 p) :=
  shapeCast_apply n h _ _ (by
    have hu : u.val = 0 := by omega
    rw [Shape.rowMajor_val_two, Shape.rowMajor_val_one]
    show p.val = p.val * 1 + u.val
    omega)

/-- A vector of row weights spread as a column and then along the rows: entry (p, q) is the weight of row p. -/
theorem weight_spread (n : FVec Ideal S50000 .f32) (h1 : S50000.BroadcastsInDim S50000x1 (![0] : Fin 1 → Fin S50000x1.rank))
    (h2 : S50000x1.BroadcastsInDim S50000x128 (![0, 1] : Fin 2 → Fin S50000x128.rank)) (p : Fin 50000) (q : Fin 128) :
    broadcastInDim S50000x128 ![0, 1] h2 (broadcastInDim S50000x1 ![0] h1 n) (ix2 p q) = n (ix1 p) := by
  refine (broadcastInDim_apply _ h2 _ (ix2 p q) (ix2 p (0 : Fin 1)) fun ax => ?_).trans ?_
  · match ax with
    | ⟨0, _⟩ => rfl
    | ⟨1, _⟩ => rfl
  · refine broadcastInDim_apply _ h1 n (ix2 p (0 : Fin 1)) (ix1 p) fun ax => ?_
    match ax with
    | ⟨0, _⟩ => rfl

/-- A bias vector spread as a row and then down the rows: entry (p, q) is the bias of column q. -/
theorem bias_spread (b : FVec Ideal S128 .f32) (h1 : S128.BroadcastsInDim S1x128 (![1] : Fin 1 → Fin S1x128.rank))
    (h2 : S1x128.BroadcastsInDim S50000x128 (![0, 1] : Fin 2 → Fin S50000x128.rank)) (p : Fin 50000) (q : Fin 128) :
    broadcastInDim S50000x128 ![0, 1] h2 (broadcastInDim S1x128 ![1] h1 b) (ix2 p q) = b (ix1 q) := by
  refine (broadcastInDim_apply _ h2 _ (ix2 p q) (ix2 (0 : Fin 1) q) fun ax => ?_).trans ?_
  · match ax with
    | ⟨0, _⟩ => rfl
    | ⟨1, _⟩ => rfl
  · refine broadcastInDim_apply _ h1 b (ix2 (0 : Fin 1) q) (ix1 q) fun ax => ?_
    match ax with
    | ⟨0, _⟩ => rfl

/-- The zero constant spread over the array is zero at every entry. -/
theorem zero_spread (h : S_.BroadcastsInDim S50000x128 (![] : Fin 0 → Fin S50000x128.rank)) (p : Fin 50000) (q : Fin 128) :
    broadcastInDim S50000x128 ![] h (constant (F := Ideal) S_ .f32 0x00000000#32) (ix2 p q)
      = Ideal.ofBits .f32 0x00000000#32 :=
  (broadcastInDim_apply _ h _ (ix2 p q) ix0 fun ax => ax.elim0).trans (constant_apply _ _)

/-- The specification read at an index. -/
theorem spec_apply (a : FVec Ideal S50000x128 .f32) (n : FVec Ideal S50000 .f32) (b : FVec Ideal S128 .f32)
    (p : Fin 50000) (q : Fin 128) :
    GraphSpec.relu128 (GraphSpec.finish128 a n b) (ix2 p q)
      = max (a (ix2 p q) * n (ix1 p) + b (ix1 q)) (Ideal.ofBits .f32 0x00000000#32) := by
  unfold GraphSpec.relu128 GraphSpec.finish128
  rw [maximumf_apply, addf_apply, mulf_apply]
  rw [weight_spread, bias_spread, zero_spread]

theorem hz : (![0, 0] : Fin 2 → Nat) = fun _ => 0 := funext fun a => by fin_cases a <;> rfl

/-- The block indices of the four windows at a grid point, decided over the ten points: the aggregated array, the weight
    column and the output move down by one block of rows per point; the bias row stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the aggregated array's block at point t is the array's entry (5000 t + p, q). -/
theorem blk0_apply (c : Dev nD) (t : Fin cfg1.N) (p : Fin 5000) (q : Fin 128) (r : Fin 50000)
    (hr : r.val = 5000 * t.val + p.val) :
    (iblk1 V c 0 t : Vec Ideal S5000x128 .f32) (ix2 p q) = (V c main_v20 : FVec Ideal S50000x128 .f32) (ix2 r q) := by
  obtain ⟨e00, e01, -⟩ := idx_facts t
  unfold iblk1
  rw [View.read_apply]
  show V c main_v20 _ = V c main_v20 _
  congr 1
  funext a
  apply Fin.ext
  match a with
  | ⟨0, _⟩ => show win1_0.index t (0 : Fin 2) * 5000 + 1 * p.val = r.val; omega
  | ⟨1, _⟩ => show win1_0.index t (1 : Fin 2) * 128 + 1 * q.val = q.val; omega

/-- Entry (p, 0) of the weight column's block at point t is the column's entry (5000 t + p, 0). -/
theorem blk1_apply (c : Dev nD) (t : Fin cfg1.N) (p : Fin 5000) (u : Fin 1) (r : Fin 50000)
    (hr : r.val = 5000 * t.val + p.val) :
    (iblk1 V c 1 t : Vec Ideal S5000x1 .f32) (ix2 p u) = (V c main_v21 : FVec Ideal S50000x1 .f32) (ix2 r u) := by
  obtain ⟨-, -, e10, e11, -⟩ := idx_facts t
  unfold iblk1
  rw [View.read_apply]
  show V c main_v21 _ = V c main_v21 _
  congr 1
  funext a
  apply Fin.ext
  match a with
  | ⟨0, _⟩ => show win1_1.index t (0 : Fin 2) * 5000 + 1 * p.val = r.val; omega
  | ⟨1, _⟩ => show win1_1.index t (1 : Fin 2) * 1 + 1 * u.val = u.val; omega

/-- The bias row's block at every point is the whole row. -/
theorem blk2_apply (c : Dev nD) (t : Fin cfg1.N) (u : Fin 1) (q : Fin 128) :
    (iblk1 V c 2 t : Vec Ideal S1x128 .f32) (ix2 u q) = (V c main_v22 : FVec Ideal S1x128 .f32) (ix2 u q) := by
  obtain ⟨-, -, -, -, e20, e21, -⟩ := idx_facts t
  unfold iblk1
  rw [View.read_apply]
  show V c main_v22 _ = V c main_v22 _
  congr 1
  funext a
  apply Fin.ext
  match a with
  | ⟨0, _⟩ => show win1_2.index t (0 : Fin 2) * 1 + 1 * u.val = u.val; omega
  | ⟨1, _⟩ => show win1_2.index t (1 : Fin 2) * 128 + 1 * q.val = q.val; omega

/-- Entry (p, q) of the output's block at point t sits at (5000 t + p, q) of the output array. -/
theorem out_emb (t : Fin cfg1.N) (p : Fin 5000) (q : Fin 128) (r : Fin 50000) (hr : r.val = 5000 * t.val + p.val) :
    ((cfg1.win 3).blk t).view.emb (ix2 p q) = (ix2 r q : S50000x128.Idx) := by
  obtain ⟨-, -, -, -, -, -, e30, e31⟩ := idx_facts t
  funext a
  apply Fin.ext
  match a with
  | ⟨0, _⟩ => show win1_3.index t (0 : Fin 2) * 5000 + 1 * p.val = r.val; omega
  | ⟨1, _⟩ => show win1_3.index t (1 : Fin 2) * 128 + 1 * q.val = q.val; omega

/-- What point t writes back is block t of the index-level function of the three arrays as the region finds them. -/
theorem flushed_eq (c : Dev nD) (t : Fin cfg1.N) :
    (dat1 (F := Ideal) V c).flushed 3 t
      = ((cfg1.win 3).blk t).view.read (Elt Ideal) (scaledShifted (V c main_v20) (V c main_v21) (V c main_v22)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  have ht : t.val < 10 := lt_of_lt_of_eq t.isLt N_1
  funext j
  obtain ⟨p, q, rfl⟩ : ∃ (p : Fin 5000) (q : Fin 128), j = ix2 p q := ⟨j 0, j 1, eq_ix2 j⟩
  have hp : 5000 * t.val + p.val < 50000 := by have := p.isLt; omega
  show k1_pay1 (F := Ideal) (iblk1 V c 0 t) (iblk1 V c 1 t) (iblk1 V c 2 t) (ix2 p q)
    = scaledShifted (V c main_v20) (V c main_v21) (V c main_v22) (((cfg1.win 3).blk t).view.emb (ix2 p q))
  refine (pay_apply (iblk1 V c 0 t) (iblk1 V c 1 t) (iblk1 V c 2 t) p q).trans ?_
  rw [out_emb t p q ⟨5000 * t.val + p.val, hp⟩ rfl, scaledShifted_apply,
    blk0_apply V c t p q ⟨5000 * t.val + p.val, hp⟩ rfl, blk1_apply V c t p 0 ⟨5000 * t.val + p.val, hp⟩ rfl,
    blk2_apply V c t 0 q]

/-- An entry of the output array lies in point t's block iff each of its coordinates lies in the block's range. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v23).slice (win1_3.rect t)).set ↔ _
  rw [View.set_slice_whole, Rect.mem_set_unit]
  exact Iff.rfl

/-- Every entry of the output array is written: row r by the point r / 5000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, htv⟩ : ∃ t : Fin cfg1.N, t.val = (i 0).val / 5000 :=
    ⟨⟨(i 0).val / 5000, by rw [show cfg1.N = 10 from N_1]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The region's output array is the specification's: both are, entry by entry, the aggregated entry times its row's
    weight plus its column's bias, maximum with zero; the weight column and the bias row are the reshaped vectors. -/
theorem value (c : Dev nD) (n : FVec Ideal S50000 .f32) (b : FVec Ideal S128 .f32)
    (hn : V c main_v21 = shapeCast S50000x1 n shapeCasts_S50000_S50000x1)
    (hb : V c main_v22 = shapeCast S1x128 b shapeCasts_S128_S1x128) :
    (dat1 (F := Ideal) V c).arrAt 3 cfg1.N = GraphSpec.relu128 (GraphSpec.finish128 (V c main_v20) n b) := by
  refine ((dat1 (F := Ideal) V c).arrAt_eq_of_cover 3 (scaledShifted (V c main_v20) (V c main_v21) (V c main_v22))
    (fun t _ => flushed_eq V c t) cover).trans ?_
  funext j
  obtain ⟨p, q, rfl⟩ : ∃ (p : Fin 50000) (q : Fin 128), j = ix2 p q := ⟨j 0, j 1, eq_ix2 j⟩
  refine ((scaledShifted_apply (V c main_v20) (V c main_v21) (V c main_v22) p q).trans ?_).trans
    (spec_apply (V c main_v20) n b p q).symm
  have en : (V c main_v21 : FVec Ideal S50000x1 .f32) (ix2 p (0 : Fin 1)) = n (ix1 p) :=
    (congrFun hn _).trans (column_of_vector n _ p 0)
  have eb : (V c main_v22 : FVec Ideal S1x128 .f32) (ix2 (0 : Fin 1) q) = b (ix1 q) :=
    (congrFun hb _).trans (shapeCast_a_1a_apply b _ 0 q)
  rw [en, eb]

end Cert.KernelIdeal.Region1

end
-- ==== Proof.Region2.lean ====
/-
  Region 2 of the kernel: the second layer's first step. The grid has ten points; point t takes rows 5000 t … 5000 t + 4999
  of the first layer's output and of the one-column weight array, and the whole weight matrix, and writes to the same rows of the
  output the matrix product of the scaled rows with the matrix,

      Σ_{k < 128} (x(r, k) · w(r, 0)) · W(k, q),      q < 47.

  The product is taken into a zero accumulator and the casts in front of it are the identity over the extended reals. The
  ten blocks of rows tile the output, so the output array is that function of the three arrays at every entry. The
  specification spreads the weight vector along the rows, multiplies, and takes the host's matrix product: the same sum
  over the inner coordinate, with the weight column the reshaped vector.
-/
import proofs.«410354_j42021960024156_1_alg».proof.Proof.Gen.KernelIdeal.Frame
import proofs.«410354_j42021960024156_1_alg».proof.Proof.Spec
import proofs.«410354_j42021960024156_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

/-
  Region 2: the rows of the hidden array scaled by the one-column weight array, times the second matrix.

  The grid has 10 points. Point t sees rows 5000·t … 5000·t + 4999 of the hidden array (a block of 5000 × 128), the same
  rows of the weight column (5000 × 1) and the whole 128 × 47 matrix, and leaves in the output's block, rows
  5000·t … again, the matrix product of (block ∘ column spread along each row) with the matrix, summed onto zero.
  The narrowing of the operands to the short float format is the identity on the extended reals. Hence the output
  array is, entry by entry,

      (r, q) ↦ Σ_{k < 128} (x(r, k) · w(r, 0)) · W(k, q),   q < 47,

  every row r lying in exactly the block of point r / 5000. The specification's transform is the host's product of
  (x ∘ the weights spread over the columns) with W: the same sum, the weight column being the reshape of the weight
  vector.
-/

namespace Cert.KernelIdeal.Region2

open Cert.KernelIdeal Cert.KernelIdeal.Gen
open Idealize.ShloMosaic.ValueIdx
open scoped BigOperators

/-! ## The closed form and the two sides at an index -/

/-- Rows of `x` scaled by the column `w`, then the product with `W`: entry (r, q) is the sum over the inner
    coordinate k of (x(r, k) · w(r, 0)) · W(k, q). -/
def scaledProduct (x : FVec Ideal S50000x128 .f32) (w : FVec Ideal S50000x1 .f32) (W : FVec Ideal S128x47 .f32) :
    FVec Ideal S50000x47 .f32 :=
  fun j => ∑ k : Fin 128, (x (ix2 (j 0) k) * w (ix2 (j 0) 0)) * W (ix2 k (j 1))

/-- The kernel's contraction pattern is the plain one: rows × inner by inner × columns. -/
theorem kernelDot_plain : dot_S5000x128_S128x47_S5000x47_1_0_0_1_n_n = DotDims.plain 5000 128 47 := rfl

/-- So is the host's. -/
theorem hostDot_plain :
    Cert.ReferenceIdeal.dot_S50000x128_S128x47_S50000x47_1_0_0_1_n_n = DotDims.plain 50000 128 47 := rfl

/-- A block of rows (reshaped to its own shape: the identity) times its column spread along each row, at an index:
    the entry times its row's weight. -/
theorem scaledRows_apply (x0 : FVec Ideal S5000x128 .f32) (x1 : FVec Ideal S5000x1 .f32) (p : Fin 5000) (k : Fin 128) :
    mulf (shapeCast S5000x128 x0 shapeCasts_S5000x128_S5000x128)
        (broadcastTo S5000x128 (shapeCast S5000x1 x1 shapeCasts_S5000x1_S5000x1) broadcasts_S5000x1_S5000x128) (ix2 p k)
      = x0 (ix2 p k) * x1 (ix2 p 0) := by
  rw [mulf_apply, shapeCast_self, shapeCast_self]
  refine congrArg (x0 (ix2 p k) * ·) ?_
  refine broadcastTo_apply x1 broadcasts_S5000x1_S5000x128 (ix2 p k) (ix2 p 0) (fun a => ?_)
  match a with
  | ⟨0, _⟩ => rfl
  | ⟨1, _⟩ => rfl

/-- What one grid point stores, at an index of its block: the narrowings are the identity, the product onto the
    zero accumulator is the sum over the inner coordinate. -/
theorem payload_apply (x0 : Vec Ideal S5000x128 .f32) (x1 : Vec Ideal S5000x1 .f32) (x2 : Vec Ideal S128x47 .f32)
    (p : Fin 5000) (q : Fin 47) :
    k2_pay1 (F := Ideal) x0 x1 x2 (ix2 p q) = ∑ k : Fin 128, (x0 (ix2 p k) * x1 (ix2 p 0)) * x2 (ix2 k q) := by
  unfold k2_pay1
  rw [kernelDot_plain]
  refine (Cert.LibPlainDot.matmul_zero_apply none _ _ (ix2 p q)).trans ?_
  refine Finset.sum_congr rfl fun k _ => ?_
  refine congrArg₂ (· * ·) ?_ rfl
  exact scaledRows_apply x0 x1 p k

/-- The specification's transform at an index: the host's product is the same sum, and the weight vector spread
    first to a column and then over the columns reads the row's weight. -/
theorem transform47_apply (x : FVec Ideal S50000x128 .f32) (n : FVec Ideal S50000 .f32) (W : FVec Ideal S128x47 .f32)
    (p : Fin 50000) (q : Fin 47) :
    GraphSpec.transform47 x n W (ix2 p q) = ∑ k : Fin 128, (x (ix2 p k) * n (ix1 p)) * W (ix2 k q) := by
  unfold GraphSpec.transform47
  rw [hostDot_plain]
  refine (Cert.LibPlainDot.dotGeneral_apply none .single _ W (ix2 p q)).trans ?_
  refine Finset.sum_congr rfl fun k _ => ?_
  refine congrArg₂ (· * ·) ?_ rfl
  rw [mulf_apply]
  refine congrArg (x (ix2 p k) * ·) ?_
  refine (broadcastInDim_apply _ _ _ (ix2 p k) (ix2 p 0) (fun a => ?_)).trans ?_
  · match a with
    | ⟨0, _⟩ => rfl
    | ⟨1, _⟩ => rfl
  · refine broadcastInDim_apply _ _ n (ix2 p 0) (ix1 p) (fun a => ?_)
    match a with
    | ⟨0, _⟩ => rfl

/-- The weight vector reshaped to a column, read in row p: entry p (both have row-major position p). -/
theorem column_apply (n : FVec Ideal S50000 .f32) (p : Fin 50000) :
    shapeCast S50000x1 n shapeCasts_S50000_S50000x1 (ix2 p 0) = n (ix1 p) := by
  refine shapeCast_apply n shapeCasts_S50000_S50000x1 (ix2 p 0) (ix1 p) ?_
  rw [Shape.rowMajor_val_two, Shape.rowMajor_val_one]
  show p.val = p.val * 1 + 0
  omega

/-- One grid point's stored block is the closed form on its rows: if the three loaded blocks are rows
    5000·t … of `x` and of `w` and the whole of `W`, the stored value at block index `j` is the closed form at the
    array index `i` that is `j` moved down by 5000·t rows. -/
theorem stored_eq (x : FVec Ideal S50000x128 .f32) (w : FVec Ideal S50000x1 .f32) (W : FVec Ideal S128x47 .f32)
    (x0 : Vec Ideal S5000x128 .f32) (x1 : Vec Ideal S5000x1 .f32) (x2 : Vec Ideal S128x47 .f32) (t : Nat)
    (hx0 : ∀ (y : S5000x128.Idx) (i : S50000x128.Idx), (i 0).val = t * 5000 + (y 0).val → (i 1).val = (y 1).val → x0 y = x i)
    (hx1 : ∀ (y : S5000x1.Idx) (i : S50000x1.Idx), (i 0).val = t * 5000 + (y 0).val → (i 1).val = (y 1).val → x1 y = w i)
    (hx2 : ∀ y : S128x47.Idx, x2 y = W y)
    (j : S5000x47.Idx) (i : S50000x47.Idx) (h0 : (i 0).val = t * 5000 + (j 0).val) (h1 : (i 1).val = (j 1).val) :
    k2_pay1 (F := Ideal) x0 x1 x2 j = scaledProduct x w W i := by
  obtain ⟨p, q, rfl⟩ : ∃ (p : Fin 5000) (q : Fin 47), j = ix2 p q := ⟨j 0, j 1, eq_ix2 j⟩
  rw [payload_apply]
  unfold scaledProduct
  refine Finset.sum_congr rfl fun k _ => ?_
  refine congrArg₂ (· * ·) (congrArg₂ (· * ·) ?_ ?_) ?_
  · exact hx0 (ix2 p k) (ix2 (i 0) k) h0 rfl
  · exact hx1 (ix2 p 0) (ix2 (i 0) 0) h0 rfl
  · rw [hx2]
    exact congrArg W (Shape.idx_ext₂ rfl h1.symm)

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The windows' index maps over the grid: at point t the hidden array's, the weights' and the output's block index is
    (t, 0), the matrix's (0, 0). -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The hidden array's block at point t is rows 5000·t … of the hidden array. -/
theorem featureBlock_apply (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v23 : S50000x128.Idx → EReal) i := by
  obtain ⟨e0, e1, -⟩ := blockIndex t
  unfold iblk2
  rw [View.read_apply]
  show V c main_v23 _ = V c main_v23 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The weights' block at point t is rows 5000·t … of the weight column. -/
theorem weightBlock_apply (c : Dev nD) (t : Fin cfg2.N) (y : S5000x1.Idx) (i : S50000x1.Idx)
    (h0 : (i 0).val = t.val * 5000 + (y 0).val) (h1 : (i 1).val = (y 1).val) :
    (iblk2 V c 1 t : Vec Ideal S5000x1 .f32) y = (V c main_v24 : S50000x1.Idx → EReal) i := by
  obtain ⟨-, -, e0, e1, -⟩ := blockIndex t
  unfold iblk2
  rw [View.read_apply]
  show V c main_v24 _ = V c main_v24 _
  congr 1
  funext a
  apply Fin.ext
  match a with
  | ⟨0, _⟩ => show win2_1.index t 0 * 5000 + 1 * (y 0).val = (i 0).val; rw [e0, h0]; omega
  | ⟨1, _⟩ => show win2_1.index t 1 * 1 + 1 * (y 1).val = (i 1).val; rw [e1, h1]; omega

/-- The matrix's block at every point is the whole matrix. -/
theorem matrixBlock_apply (c : Dev nD) (t : Fin cfg2.N) (y : S128x47.Idx) :
    (iblk2 V c 2 t : Vec Ideal S128x47 .f32) y = (V c main_arg4 : S128x47.Idx → EReal) y := by
  obtain ⟨-, -, -, -, e0, e1, -⟩ := blockIndex t
  unfold iblk2
  rw [View.read_apply]
  show V c main_arg4 _ = V c main_arg4 _
  congr 1
  funext a
  apply Fin.ext
  match a with
  | ⟨0, _⟩ => show win2_2.index t 0 * 128 + 1 * (y 0).val = (y 0).val; rw [e0]; omega
  | ⟨1, _⟩ => show win2_2.index t 1 * 47 + 1 * (y 1).val = (y 1).val; rw [e1]; omega

/-- What point t writes back is block t of the closed form of the arrays as the region finds them. -/
theorem flushed_eq (c : Dev nD) (t : Fin cfg2.N) :
    (dat2 (F := Ideal) V c).flushed 3 t
      = ((cfg2.win 3).blk t).view.read (Elt Ideal) (scaledProduct (V c main_v23) (V c main_v24) (V c main_arg4)) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S5000x1) zeroOffsets,
    View.ld_unit_zero (S := S128x47) zeroOffsets]
  obtain ⟨-, -, -, -, -, -, e0, e1⟩ := blockIndex t
  funext j
  refine stored_eq (V c main_v23) (V c main_v24) (V c main_arg4) (iblk2 V c 0 t) (iblk2 V c 1 t) (iblk2 V c 2 t) t.val
    (featureBlock_apply V c t) (weightBlock_apply V c t) (matrixBlock_apply V c t) _
    (((cfg2.win 3).blk t).view.emb j) ?_ ?_
  · show win2_3.index t 0 * 5000 + 1 * (j 0).val = t.val * 5000 + (j 0).val; rw [e0]; omega
  · show win2_3.index t 1 * 47 + 1 * (j 1).val = (j 1).val; rw [e1]; omega

/-- An index of the output array is in point t's block iff each coordinate is in the block's range on its axis. -/
theorem mem_block (t : Fin cfg2.N) (i : S50000x47.Idx) :
    i ∈ ((cfg2.win 3).blk t).view.set ↔ ∀ a : Fin 2, win2_3.index t a * S5000x47.size a ≤ (i a).val ∧ (i a).val < win2_3.index t a * S5000x47.size a + S5000x47.size a := by
  show i ∈ ((View.whole main_v25).slice (win2_3.rect t)).set ↔ _
  rw [View.set_slice_whole, Rect.mem_set_unit]
  exact Iff.rfl

/-- Every row r of the output lies in the block of point r / 5000, which is written back. -/
theorem covered (i : S50000x47.Idx) :
    ∃ t : Fin cfg2.N, (cfg2.win 3).flush t = true ∧ i ∈ ((cfg2.win 3).blk t).view.set := by
  have hi0 : (i 0).val < 50000 := (i 0).isLt
  have hi1 : (i 1).val < 47 := (i 1).isLt
  have hN : cfg2.N = 10 := N_2
  let t : Fin cfg2.N := ⟨(i 0).val / 5000, by rw [hN]; omega⟩
  have ht : t.val = (i 0).val / 5000 := rfl
  obtain ⟨-, -, -, -, -, -, e0, e1⟩ := blockIndex t
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 47 ≤ (i 1).val ∧ (i 1).val < win2_3.index t (1 : Fin 2) * 47 + 47; rw [e1]; omega

/-- The output array after the region: the closed form of the arrays as the region finds them. -/
theorem array_eq (c : Dev nD) :
    (dat2 (F := Ideal) V c).arrAt 3 cfg2.N = scaledProduct (V c main_v23) (V c main_v24) (V c main_arg4) :=
  (dat2 V c).arrAt_eq_of_cover 3 (scaledProduct (V c main_v23) (V c main_v24) (V c main_arg4))
    (fun t _ => flushed_eq V c t) covered

theorem value (c : Dev nD) (n : FVec Ideal S50000 .f32)
    (hn : V c main_v24 = shapeCast S50000x1 n shapeCasts_S50000_S50000x1) :
    (dat2 (F := Ideal) V c).arrAt 3 cfg2.N = GraphSpec.transform47 (V c main_v23) n (V c main_arg4) := by
  rw [array_eq, hn]
  funext j
  obtain ⟨p, q, rfl⟩ : ∃ (p : Fin 50000) (q : Fin 47), j = ix2 p q := ⟨j 0, j 1, eq_ix2 j⟩
  rw [transform47_apply]
  unfold scaledProduct
  refine Finset.sum_congr rfl fun k _ => ?_
  refine congrArg₂ (· * ·) (congrArg₂ (· * ·) rfl ?_) rfl
  exact column_apply n p

end Cert.KernelIdeal.Region2

end
-- ==== Proof.Region3.lean ====
/-
  Region 3 of the kernel: the second layer's last step. The grid has ten points; point t takes rows 5000 t … 5000 t + 4999
  of the aggregated array, the same rows of the one-column weight array and the whole bias row, and writes to the same rows
  of the output, entry by entry,

      a(r, q) · w(r, 0) + β(0, q).

  The ten blocks of rows tile the output, so the output array is that function of the three arrays at every entry. The
  specification spreads the weight vector along the rows and the bias vector down the rows and takes the same product
  and sum; with the weight column and the bias row the reshaped vectors, the two agree entry by entry, with no algebra:
  every operation is pointwise.
-/
import proofs.«410354_j42021960024156_1_alg».proof.Proof.Gen.KernelIdeal.Frame
import proofs.«410354_j42021960024156_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Region3

open Cert.KernelIdeal Cert.KernelIdeal.Gen

variable (V : (c : Dev nD) → (b : Ref sig .tc) → Buf (Elt Ideal) ((c : Thread nD τ).loc b))

/-- A column broadcast along the row: entry (p, q) is the column's entry at row p. -/
theorem column_along_row (x : FVec Ideal S5000x1 .f32) (h : S5000x1.Broadcasts S5000x47) (p : Fin 5000) (q : Fin 47) :
    broadcastTo S5000x47 x h (ix2 p q) = x (ix2 p (0 : Fin 1)) := by
  refine broadcastTo_apply x h (ix2 p q) (ix2 p (0 : Fin 1)) fun ax => ?_
  match ax with
  | ⟨0, _⟩ => rfl
  | ⟨1, _⟩ => rfl

theorem pay_apply (x0 : Vec Ideal S5000x47 .f32) (x1 : Vec Ideal S5000x1 .f32) (x2 : Vec Ideal S1x47 .f32) (p : Fin 5000) (q : Fin 47) :
    k3_pay1 (F := Ideal) x0 x1 x2 (ix2 p q)
      = x0 (ix2 p q) * x1 (ix2 p (0 : Fin 1)) + x2 (ix2 (0 : Fin 1) q) := by
  unfold k3_pay1
  simp only [shapeCast_self]
  rw [addf_apply, mulf_apply, column_along_row, broadcastTo_1b_ab_apply]

/-- The index-level function: the aggregated entry times its row's weight, plus its column's bias. -/
def scaledShifted (a : FVec Ideal S50000x47 .f32) (n2 : FVec Ideal S50000x1 .f32) (b2 : FVec Ideal S1x47 .f32) :
    FVec Ideal S50000x47 .f32 :=
  fun j => a j * n2 (ix2 (j 0) (0 : Fin 1)) + b2 (ix2 (0 : Fin 1) (j 1))

theorem scaledShifted_apply (a : FVec Ideal S50000x47 .f32) (n2 : FVec Ideal S50000x1 .f32) (b2 : FVec Ideal S1x47 .f32)
    (p : Fin 50000) (q : Fin 47) :
    scaledShifted a n2 b2 (ix2 p q)
      = a (ix2 p q) * n2 (ix2 p (0 : Fin 1)) + b2 (ix2 (0 : Fin 1) q) := rfl

/-- The weights as a column: entry (p, 0) of the reshaped vector is the vector's entry p. -/
theorem column_of_vector (n : FVec Ideal S50000 .f32) (h : S50000.ShapeCasts S50000x1) (p : Fin 50000) (u : Fin 1) :
    shapeCast S50000x1 n h (ix2 p u) = n (ix1 p) :=
  shapeCast_apply n h _ _ (by
    have hu : u.val = 0 := by omega
    rw [Shape.rowMajor_val_two, Shape.rowMajor_val_one]
    show p.val = p.val * 1 + u.val
    omega)

/-- A vector of row weights spread as a column and then along the rows: entry (p, q) is the weight of row p. -/
theorem weight_spread (n : FVec Ideal S50000 .f32) (h1 : S50000.BroadcastsInDim S50000x1 (![0] : Fin 1 → Fin S50000x1.rank))
    (h2 : S50000x1.BroadcastsInDim S50000x47 (![0, 1] : Fin 2 → Fin S50000x47.rank)) (p : Fin 50000) (q : Fin 47) :
    broadcastInDim S50000x47 ![0, 1] h2 (broadcastInDim S50000x1 ![0] h1 n) (ix2 p q) = n (ix1 p) := by
  refine (broadcastInDim_apply _ h2 _ (ix2 p q) (ix2 p (0 : Fin 1)) fun ax => ?_).trans ?_
  · match ax with
    | ⟨0, _⟩ => rfl
    | ⟨1, _⟩ => rfl
  · refine broadcastInDim_apply _ h1 n (ix2 p (0 : Fin 1)) (ix1 p) fun ax => ?_
    match ax with
    | ⟨0, _⟩ => rfl

/-- A bias vector spread as a row and then down the rows: entry (p, q) is the bias of column q. -/
theorem bias_spread (b : FVec Ideal S47 .f32) (h1 : S47.BroadcastsInDim S1x47 (![1] : Fin 1 → Fin S1x47.rank))
    (h2 : S1x47.BroadcastsInDim S50000x47 (![0, 1] : Fin 2 → Fin S50000x47.rank)) (p : Fin 50000) (q : Fin 47) :
    broadcastInDim S50000x47 ![0, 1] h2 (broadcastInDim S1x47 ![1] h1 b) (ix2 p q) = b (ix1 q) := by
  refine (broadcastInDim_apply _ h2 _ (ix2 p q) (ix2 (0 : Fin 1) q) fun ax => ?_).trans ?_
  · match ax with
    | ⟨0, _⟩ => rfl
    | ⟨1, _⟩ => rfl
  · refine broadcastInDim_apply _ h1 b (ix2 (0 : Fin 1) q) (ix1 q) fun ax => ?_
    match ax with
    | ⟨0, _⟩ => rfl

/-- The specification read at an index. -/
theorem spec_apply (a : FVec Ideal S50000x47 .f32) (n : FVec Ideal S50000 .f32) (b : FVec Ideal S47 .f32)
    (p : Fin 50000) (q : Fin 47) :
    GraphSpec.finish47 a n b (ix2 p q) = a (ix2 p q) * n (ix1 p) + b (ix1 q) := by
  unfold GraphSpec.finish47
  rw [addf_apply, mulf_apply]
  rw [weight_spread, bias_spread]

theorem hz : (![0, 0] : Fin 2 → Nat) = fun _ => 0 := funext fun a => by fin_cases a <;> rfl

/-- The block indices of the four windows at a grid point, decided over the ten points: the aggregated array, the weight
    column and the output move down by one block of rows per point; the bias row stays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry (p, q) of the aggregated array's block at point t is the array's entry (5000 t + p, q). -/
theorem blk0_apply (c : Dev nD) (t : Fin cfg3.N) (p : Fin 5000) (q : Fin 47) (r : Fin 50000)
    (hr : r.val = 5000 * t.val + p.val) :
    (iblk3 V c 0 t : Vec Ideal S5000x47 .f32) (ix2 p q) = (V c main_v29 : FVec Ideal S50000x47 .f32) (ix2 r q) := by
  obtain ⟨e00, e01, -⟩ := idx_facts t
  unfold iblk3
  rw [View.read_apply]
  show V c main_v29 _ = V c main_v29 _
  congr 1
  funext a
  apply Fin.ext
  match a with
  | ⟨0, _⟩ => show win3_0.index t (0 : Fin 2) * 5000 + 1 * p.val = r.val; omega
  | ⟨1, _⟩ => show win3_0.index t (1 : Fin 2) * 47 + 1 * q.val = q.val; omega

/-- Entry (p, 0) of the weight column's block at point t is the column's entry (5000 t + p, 0). -/
theorem blk1_apply (c : Dev nD) (t : Fin cfg3.N) (p : Fin 5000) (u : Fin 1) (r : Fin 50000)
    (hr : r.val = 5000 * t.val + p.val) :
    (iblk3 V c 1 t : Vec Ideal S5000x1 .f32) (ix2 p u) = (V c main_v30 : FVec Ideal S50000x1 .f32) (ix2 r u) := by
  obtain ⟨-, -, e10, e11, -⟩ := idx_facts t
  unfold iblk3
  rw [View.read_apply]
  show V c main_v30 _ = V c main_v30 _
  congr 1
  funext a
  apply Fin.ext
  match a with
  | ⟨0, _⟩ => show win3_1.index t (0 : Fin 2) * 5000 + 1 * p.val = r.val; omega
  | ⟨1, _⟩ => show win3_1.index t (1 : Fin 2) * 1 + 1 * u.val = u.val; omega

/-- The bias row's block at every point is the whole row. -/
theorem blk2_apply (c : Dev nD) (t : Fin cfg3.N) (u : Fin 1) (q : Fin 47) :
    (iblk3 V c 2 t : Vec Ideal S1x47 .f32) (ix2 u q) = (V c main_v31 : FVec Ideal S1x47 .f32) (ix2 u q) := by
  obtain ⟨-, -, -, -, e20, e21, -⟩ := idx_facts t
  unfold iblk3
  rw [View.read_apply]
  show V c main_v31 _ = V c main_v31 _
  congr 1
  funext a
  apply Fin.ext
  match a with
  | ⟨0, _⟩ => show win3_2.index t (0 : Fin 2) * 1 + 1 * u.val = u.val; omega
  | ⟨1, _⟩ => show win3_2.index t (1 : Fin 2) * 47 + 1 * q.val = q.val; omega

/-- Entry (p, q) of the output's block at point t sits at (5000 t + p, q) of the output array. -/
theorem out_emb (t : Fin cfg3.N) (p : Fin 5000) (q : Fin 47) (r : Fin 50000) (hr : r.val = 5000 * t.val + p.val) :
    ((cfg3.win 3).blk t).view.emb (ix2 p q) = (ix2 r q : S50000x47.Idx) := by
  obtain ⟨-, -, -, -, -, -, e30, e31⟩ := idx_facts t
  funext a
  apply Fin.ext
  match a with
  | ⟨0, _⟩ => show win3_3.index t (0 : Fin 2) * 5000 + 1 * p.val = r.val; omega
  | ⟨1, _⟩ => show win3_3.index t (1 : Fin 2) * 47 + 1 * q.val = q.val; omega

/-- What point t writes back is block t of the index-level function of the three arrays as the region finds them. -/
theorem flushed_eq (c : Dev nD) (t : Fin cfg3.N) :
    (dat3 (F := Ideal) V c).flushed 3 t
      = ((cfg3.win 3).blk t).view.read (Elt Ideal) (scaledShifted (V c main_v29) (V c main_v30) (V c main_v31)) := by
  show (cfg3.win 3).cut (grid3.coords t) ((dat3 V c).after 3 t) = _
  rw [after3_3]
  unfold out3_3
  rw [View.canon_unit_zero hz]
  simp only [View.ld_unit_zero (S := S5000x47) hz, View.ld_unit_zero (S := S5000x1) hz, View.ld_unit_zero (S := S1x47) hz]
  have ht : t.val < 10 := lt_of_lt_of_eq t.isLt N_3
  funext j
  obtain ⟨p, q, rfl⟩ : ∃ (p : Fin 5000) (q : Fin 47), j = ix2 p q := ⟨j 0, j 1, eq_ix2 j⟩
  have hp : 5000 * t.val + p.val < 50000 := by have := p.isLt; omega
  show k3_pay1 (F := Ideal) (iblk3 V c 0 t) (iblk3 V c 1 t) (iblk3 V c 2 t) (ix2 p q)
    = scaledShifted (V c main_v29) (V c main_v30) (V c main_v31) (((cfg3.win 3).blk t).view.emb (ix2 p q))
  refine (pay_apply (iblk3 V c 0 t) (iblk3 V c 1 t) (iblk3 V c 2 t) p q).trans ?_
  rw [out_emb t p q ⟨5000 * t.val + p.val, hp⟩ rfl, scaledShifted_apply,
    blk0_apply V c t p q ⟨5000 * t.val + p.val, hp⟩ rfl, blk1_apply V c t p 0 ⟨5000 * t.val + p.val, hp⟩ rfl,
    blk2_apply V c t 0 q]

/-- An entry of the output array lies in point t's block iff each of its coordinates lies in the block's range. -/
theorem mem_blk (t : Fin cfg3.N) (i : S50000x47.Idx) :
    i ∈ ((cfg3.win 3).blk t).view.set ↔ ∀ a : Fin 2, win3_3.index t a * S5000x47.size a ≤ (i a).val
      ∧ (i a).val < win3_3.index t a * S5000x47.size a + S5000x47.size a := by
  show i ∈ ((View.whole main_v32).slice (win3_3.rect t)).set ↔ _
  rw [View.set_slice_whole, Rect.mem_set_unit]
  exact Iff.rfl

/-- Every entry of the output array is written: row r by the point r / 5000. -/
theorem cover (i : S50000x47.Idx) :
    ∃ t : Fin cfg3.N, (cfg3.win 3).flush t = true ∧ i ∈ ((cfg3.win 3).blk t).view.set := by
  have hi0 : (i 0).val < 50000 := (i 0).isLt
  have hi1 : (i 1).val < 47 := (i 1).isLt
  obtain ⟨t, htv⟩ : ∃ t : Fin cfg3.N, t.val = (i 0).val / 5000 :=
    ⟨⟨(i 0).val / 5000, by rw [show cfg3.N = 10 from N_3]; omega⟩, rfl⟩
  obtain ⟨-, -, -, -, -, -, e30, e31⟩ := idx_facts t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 47 ≤ (i 1).val ∧ (i 1).val < win3_3.index t (1 : Fin 2) * 47 + 47
    omega

/-- The region's output array is the specification's: both are, entry by entry, the aggregated entry times its row's
    weight plus its column's bias; the weight column and the bias row are the reshaped vectors. -/
theorem value (c : Dev nD) (n : FVec Ideal S50000 .f32) (b : FVec Ideal S47 .f32)
    (hn : V c main_v30 = shapeCast S50000x1 n shapeCasts_S50000_S50000x1)
    (hb : V c main_v31 = shapeCast S1x47 b shapeCasts_S47_S1x47) :
    (dat3 (F := Ideal) V c).arrAt 3 cfg3.N = GraphSpec.finish47 (V c main_v29) n b := by
  refine ((dat3 (F := Ideal) V c).arrAt_eq_of_cover 3 (scaledShifted (V c main_v29) (V c main_v30) (V c main_v31))
    (fun t _ => flushed_eq V c t) cover).trans ?_
  funext j
  obtain ⟨p, q, rfl⟩ : ∃ (p : Fin 50000) (q : Fin 47), j = ix2 p q := ⟨j 0, j 1, eq_ix2 j⟩
  refine ((scaledShifted_apply (V c main_v29) (V c main_v30) (V c main_v31) p q).trans ?_).trans
    (spec_apply (V c main_v29) n b p q).symm
  have en : (V c main_v30 : FVec Ideal S50000x1 .f32) (ix2 p (0 : Fin 1)) = n (ix1 p) :=
    (congrFun hn _).trans (column_of_vector n _ p 0)
  have eb : (V c main_v31 : FVec Ideal S1x47 .f32) (ix2 (0 : Fin 1) q) = b (ix1 q) :=
    (congrFun hb _).trans (shapeCast_a_1a_apply b _ 0 q)
  rw [en, eb]

end Cert.KernelIdeal.Region3

end
-- ==== Proof.Guard.lean ====
/-
  The sources are in range, so the kernel's guarded gather is the plain gather.

  The precondition says, besides the finiteness of the float inputs, that every source s (row 0 of the edge array)
  satisfies -50000 ≤ s < 50000 as a signed 32-bit integer. The wrapped position of such a source — s + 50000 when s is
  negative, s otherwise; the sum does not wrap around, because s ≥ -50000 — lies in 0 … 49999. The guard compares the
  position with 0 and with 49999, takes the conjunction, and reduces it over an axis of one element: it is 1 at every
  edge, and the choice between the gathered row and the not-a-number pattern takes the gathered row everywhere.
-/
import proofs.«410354_j42021960024156_1_alg».proof.Proof.KernelOps
import proofs.«410354_j42021960024156_1_alg».proof.Proof.Gen.Pre_finite_inputs
import Idealize.ShloMosaic.Lib.ValueIdx
import Idealize.ShloMosaic.Lib.ReduceAll
import Idealize.ShloMosaic.Lib.StableHlo.Predicate
import Idealize.ShloMosaic.Lib.WordArith

noncomputable section

open Idealize.ShloMosaic

namespace Cert.Guard

open Cert.KernelIdeal Cert.KernelIdeal.Gen Cert.KernelOps

/-- Every source lies in -50000 … 49999 (as signed 32-bit words). -/
def SourcesInRange (s : IVec S800000 32) : Prop :=
  ∀ i : S800000.Idx, (-50000 : Int) ≤ (s i).toInt ∧ (s i).toInt < 50000

/-- The precondition, evaluated at the six argument arrays, gives the range of the sources. -/
theorem sources_of_pre (x : FVec Ideal S50000x128 .f32) (e : IVec S2x800000 32) (W1 : FVec Ideal S128x128 .f32) (b1 : FVec Ideal S128 .f32)
    (W2 : FVec Ideal S128x47 .f32) (b2 : FVec Ideal S47 .f32)
    (h : Cert.Pre_finite_inputs.fn (F := Ideal) x e W1 b1 W2 b2 = fun _ => 1#1) : SourcesInRange (srcK e) := by
  intro i
  -- the predicate at its one index: a conjunction of reductions by `and`, the last two over the sources
  have h0 := congrFun h ValueIdx.ix0
  dsimp only [Cert.Pre_finite_inputs.fn, Cert.Pre_finite_inputs.fn_part1, Cert.Pre_finite_inputs.fn_part2] at h0
  obtain ⟨h1, hlt⟩ := IntOp.andi_eq_one.1 h0
  obtain ⟨_, hge⟩ := IntOp.andi_eq_one.1 h1
  haveI : Subsingleton Cert.Pre_finite_inputs.S_.Idx := ⟨fun a b => funext fun d => d.elim0⟩
  -- a reduction by `and` over every axis that is 1 had a 1 at every element; the element is a signed comparison of
  -- source i with the word of -50000 (from below) and of 50000 (from above)
  have hge' := IntOp.cmpi_sge.1 (Host.reduce_andi_all _ _ _ _ _ hge i)
  have hlt' := IntOp.cmpi_slt.1 (Host.reduce_andi_all _ _ _ _ _ hlt i)
  exact ⟨hge', hlt'⟩

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-- A reduction by `and` from 1 of an array whose every element is 1 is 1 at every index. -/
private theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-- A source in -50000 … 49999, with 50000 added when it is negative, lies in 0 … 49999: the sum stays inside the
    32-bit word, so it reads signed as the integers' sum. -/
private theorem wrapped_range (x : BitVec 32) (hx : (-50000 : Int) ≤ x.toInt ∧ x.toInt < 50000) :
    (0 : Int) ≤ (Scalar.select (IntOp.cmpi .slt x 0#32) (IntOp.addi x 50000#32) x).toInt ∧
      (Scalar.select (IntOp.cmpi .slt x 0#32) (IntOp.addi x 50000#32) x).toInt ≤ 49999 := by
  have z : (0#32).toInt = 0 := by decide
  have c : (50000#32).toInt = 50000 := by decide
  by_cases hn : x.toInt < 0
  · -- a negative source: the comparison's bit is 1, the select takes the sum
    have hc : IntOp.cmpi .slt x 0#32 = 1#1 := IntOp.cmpi_slt.2 (by rw [z]; exact hn)
    rw [hc, ValueIdx.select_one]
    have hsum : (IntOp.addi x 50000#32).toInt = x.toInt + 50000 := by
      have := WordArith.toInt_add_of_bounds x 50000#32 (by rw [c]; omega) (by rw [c]; omega)
      rw [c] at this
      exact this
    rw [hsum]
    omega
  · -- a source that is not negative: the bit is 0, the select keeps the source
    have hc : IntOp.cmpi .slt x 0#32 = 0#1 :=
      ValueIdx.eq_zero_of_ne_one fun h1 => hn (by have := IntOp.cmpi_slt.1 h1; rw [z] at this; exact this)
    rw [hc, ValueIdx.select_zero]
    omega

/-- With every source in range, every wrapped position passes the guard's test: both comparisons are 1 at the one
    coordinate of axis 1, so their `and`, reduced over that axis from 1, is 1. -/
theorem inRangeK_wrapK (s : IVec S800000 32) (hs : SourcesInRange s) (i : S800000.Idx) : inRangeK (wrapK s) i = 1#1 := by
  unfold inRangeK
  refine reduce_andi_of_all _ _ _ _ (fun k => ?_) (fun _ => rfl) i
  -- the wrapped position at (k₀, 0) is the select on source k₀
  obtain ⟨i', hi'⟩ : ∃ i' : S800000.Idx, wrapK s k
      = Scalar.select (IntOp.cmpi .slt (s i') 0#32) (IntOp.addi (s i') 50000#32) (s i') := ⟨_, rfl⟩
  obtain ⟨h0, h1⟩ := wrapped_range (s i') (hs i')
  have z : (0#32).toInt = 0 := by decide
  have c : (49999#32).toInt = 49999 := by decide
  show IntOp.andi (IntOp.cmpi .sge (wrapK s k) 0#32) (IntOp.cmpi .sle (wrapK s k) 49999#32) = 1#1
  rw [hi']
  exact IntOp.andi_eq_one.2 ⟨IntOp.cmpi_sge.2 (by rw [z]; exact h0), IntOp.cmpi_sle.2 (by rw [c]; exact h1)⟩

/-- With every source in range the guard passes everywhere, and the guarded gather is the plain one. -/
theorem gatherRows128_eq (h : FVec Ideal S50000x128 .f32) (s : IVec S800000 32) (hs : SourcesInRange s) :
    gatherRows128 h s = Host.gather gather_S50000x128_S800000x1_S800000x128_1_0_n_n_0_1_1128 h (wrapK s) := by
  -- at every index the mask, the guard's bit of the index's row, is 1, and the select takes the gathered row
  funext j
  unfold gatherRows128
  rw [ValueIdx.select_apply]
  have hm : broadcastInDim S800000x128 ![0] bcast_S800000_S800000x128_0 (inRangeK (wrapK s)) j = 1#1 :=
    inRangeK_wrapK s hs _
  rw [hm, ValueIdx.select_one]

theorem gatherRows47_eq (h : FVec Ideal S50000x47 .f32) (s : IVec S800000 32) (hs : SourcesInRange s) :
    gatherRows47 h s = Host.gather gather_S50000x47_S800000x1_S800000x47_1_0_n_n_0_1_147 h (wrapK s) := by
  funext j
  unfold gatherRows47
  rw [ValueIdx.select_apply]
  have hm : broadcastInDim S800000x47 ![0] bcast_S800000_S800000x47_0 (inRangeK (wrapK s)) j = 1#1 :=
    inRangeK_wrapK s hs _
  rw [hm, ValueIdx.select_one]

end Cert.Guard

end
-- ==== Proof.Chain.lean ====
/-
  The kernel program's result array is the network of the specification at the six argument arrays, when every
  source lies in -50000 … 49999.

  The generated frame names the contents of the buffers at every boundary between the program's fourteen segments
  (ten host stretches and four regions). Walking those boundaries in order:
    * the first stretches make the two rows of the edge array and the two node-weight vectors, and later segments
      still read them: a buffer that a stretch does not write, and that is not an array of a region, keeps its contents
      (`Carried`);
    * region 0 leaves the rows of the features scaled by the source weights, times the first weight matrix;
    * the next stretches gather its rows at the sources — the gather guards itself, and the guard passes everywhere
      because the sources are in range — and sum them into the destinations;
    * region 1 scales the sums by the destination weights, adds the bias and takes the maximum with zero;
    * region 2, the stretches after it and region 3 are the second layer in the same way, without the maximum.
  Each step is one lemma about one segment; nothing here opens an operation.
-/
import proofs.«410354_j42021960024156_1_alg».proof.Proof.Gen.KernelIdeal.Frame
import proofs.«410354_j42021960024156_1_alg».proof.Proof.Reads
import proofs.«410354_j42021960024156_1_alg».proof.Proof.Region0
import proofs.«410354_j42021960024156_1_alg».proof.Proof.Region1
import proofs.«410354_j42021960024156_1_alg».proof.Proof.Region2
import proofs.«410354_j42021960024156_1_alg».proof.Proof.Region3
import proofs.«410354_j42021960024156_1_alg».proof.Proof.Guard

set_option maxRecDepth 16384

noncomputable section

namespace Cert.KernelIdeal.Chain

open Cert.KernelIdeal Cert.KernelIdeal.Gen Cert.KernelOps Cert.KernelIdeal.Reads
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch writes keeps its contents: from `after ops B b = v` to `B b = v`. -/
macro "past_stretch" : tactic => `(tactic|
  refine (StableHlo.after_of_forall_not_mem _ _ (List.forall_iff_forall_mem.mp (by
    simp only [hostOps0, hostOps0_1, hostOps0_2, hostOps0_3, hostOps0_4, hostOps1, hostOps1_1, hostOps2, hostOps3, hostOps3_1,
      List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).trans ?_)

/-- What later segments still read of the first stretches' results and of the arguments, at a boundary's contents `B`:
    the two rows of the edge array, the two node-weight vectors, the first bias, the second weight matrix and bias. -/
structure Carried (c : Dev nD) (B : Valuation τ sig (Elt Ideal)) : Prop where
  src : B (Proc.devRef .tc main_v1) = srcK (m ((c : Thread nD τ).loc main_arg1))
  dst : B (Proc.devRef .tc main_v3) = dstK (m ((c : Thread nD τ).loc main_arg1))
  wSrc : B (Proc.devRef .tc main_v12) = normK (F := Ideal) (srcK (m ((c : Thread nD τ).loc main_arg1)))
  wDst : B (Proc.devRef .tc main_v14) = normK (F := Ideal) (dstK (m ((c : Thread nD τ).loc main_arg1)))
  b1 : B (Proc.devRef .tc main_arg3) = m ((c : Thread nD τ).loc main_arg3)
  w2 : B (Proc.devRef .tc main_arg4) = m ((c : Thread nD τ).loc main_arg4)
  b2 : B (Proc.devRef .tc main_arg5) = m ((c : Thread nD τ).loc main_arg5)

/-! ## Up to region 0 -/

/-- The source weights, once made (after the third stretch). -/
theorem weightSrc3 (c : Dev nD) : W3 m ρ c (Proc.devRef .tc main_v12) = normK (F := Ideal) (srcK (m ((c : Thread nD τ).loc main_arg1))) := by
  refine (Reads.weightSrc _).trans ?_
  rw [normK_eq_count]
  refine congrArg (Host.rsqrt (F := Ideal) (s := S50000) (φ := .f32)) ?_
  refine (Reads.clampSrc _).trans ?_
  exact congrArg₂ clampK (Reads.first_one _) (Reads.first_countSrc _)

theorem carried5 (c : Dev nD) : Carried m c (W5 m ρ c) where
  src := by past_stretch; past_stretch; past_stretch; past_stretch; exact Reads.first_src _
  dst := by past_stretch; past_stretch; past_stretch; past_stretch; exact Reads.first_dst _
  wSrc := by past_stretch; past_stretch; exact weightSrc3 m ρ c
  wDst := by
    refine (Reads.weightDst _).trans ?_
    rw [normK_eq_count]
    refine congrArg (Host.rsqrt (F := Ideal) (s := S50000) (φ := .f32)) ?_
    refine (Reads.clampDst _).trans ?_
    refine congrArg₂ clampK (Reads.second_one _) ?_
    past_stretch; past_stretch; exact Reads.first_countDst _
  b1 := by past_stretch; past_stretch; past_stretch; past_stretch; past_stretch; rfl
  w2 := by past_stretch; past_stretch; past_stretch; past_stretch; past_stretch; rfl
  b2 := by past_stretch; past_stretch; past_stretch; past_stretch; past_stretch; rfl

theorem features5 (c : Dev nD) : W5 m ρ c (Proc.devRef .tc main_arg0) = m ((c : Thread nD τ).loc main_arg0) := by
  past_stretch; past_stretch; past_stretch; past_stretch; past_stretch; rfl

theorem weights5 (c : Dev nD) : W5 m ρ c (Proc.devRef .tc main_arg2) = m ((c : Thread nD τ).loc main_arg2) := by
  past_stretch; past_stretch; past_stretch; past_stretch; past_stretch; rfl

/-- The source weights as a column, as region 0 finds them. -/
theorem column5 (c : Dev nD) : W5 m ρ c (Proc.devRef .tc main_v15)
    = shapeCast S50000x1 (normK (F := Ideal) (srcK (m ((c : Thread nD τ).loc main_arg1)))) shapeCasts_S50000_S50000x1 := by
  refine (Reads.columnSrc _).trans ?_
  refine congrArg (fun n : FVec Ideal S50000 .f32 => shapeCast S50000x1 n shapeCasts_S50000_S50000x1) ?_
  past_stretch; exact weightSrc3 m ρ c

/-! ## Region 0 and the stretches after it -/

/-- The first layer's scaled product. -/
abbrev product1 (c : Dev nD) : FVec Ideal S50000x128 .f32 :=
  GraphSpec.transform128 (m ((c : Thread nD τ).loc main_arg0)) (normK (F := Ideal) (srcK (m ((c : Thread nD τ).loc main_arg1)))) (m ((c : Thread nD τ).loc main_arg2))

theorem product1_eq (c : Dev nD) : W6 m ρ c (Proc.devRef .tc main_v16) = product1 m c := by
  refine (W6_arr m ρ c 3).trans ?_
  refine (Region0.value (V5 m ρ) c (normK (F := Ideal) (srcK (m ((c : Thread nD τ).loc main_arg1)))) (column5 m ρ c)).trans ?_
  exact congrArg₂ (fun x W => GraphSpec.transform128 x (normK (F := Ideal) (srcK (m ((c : Thread nD τ).loc main_arg1)))) W) (features5 m ρ c) (weights5 m ρ c)

theorem carried6 (c : Dev nD) : Carried m c (W6 m ρ c) :=
  let k := carried5 m ρ c
  { src := (W6_of_ne m ρ c main_v1 (by decide)).trans k.src
    dst := (W6_of_ne m ρ c main_v3 (by decide)).trans k.dst
    wSrc := (W6_of_ne m ρ c main_v12 (by decide)).trans k.wSrc
    wDst := (W6_of_ne m ρ c main_v14 (by decide)).trans k.wDst
    b1 := (W6_of_ne m ρ c main_arg3 (by decide)).trans k.b1
    w2 := (W6_of_ne m ρ c main_arg4 (by decide)).trans k.w2
    b2 := (W6_of_ne m ρ c main_arg5 (by decide)).trans k.b2 }

theorem carried8 (c : Dev nD) : Carried m c (W8 m ρ c) :=
  let k := carried6 m ρ c
  { src := by past_stretch; past_stretch; exact k.src
    dst := by past_stretch; past_stretch; exact k.dst
    wSrc := by past_stretch; past_stretch; exact k.wSrc
    wDst := by past_stretch; past_stretch; exact k.wDst
    b1 := by past_stretch; past_stretch; exact k.b1
    w2 := by past_stretch; past_stretch; exact k.w2
    b2 := by past_stretch; past_stretch; exact k.b2 }

/-- The first layer's sums into the destinations. -/
theorem summed1_eq (hs : ∀ c : Dev nD, Guard.SourcesInRange (srcK (m ((c : Thread nD τ).loc main_arg1)))) (c : Dev nD) : W8 m ρ c (Proc.devRef .tc main_v20) = GraphSpec.aggregate128 (product1 m c) (m ((c : Thread nD τ).loc main_arg1)) := by
  refine (Reads.summed128 _).trans ?_
  have hg : W7 m ρ c (Proc.devRef .tc main_v17)
      = Host.gather gather_S50000x128_S800000x1_S800000x128_1_0_n_n_0_1_1128 (product1 m c) (wrapK (srcK (m ((c : Thread nD τ).loc main_arg1)))) := by
    refine (Reads.gathered128 _).trans ?_
    refine (congrArg₂ (gatherRows128 (F := Ideal)) (product1_eq m ρ c) (carried6 m ρ c).src).trans ?_
    exact Guard.gatherRows128_eq _ _ (hs c)
  have hd : W7 m ρ c (Proc.devRef .tc main_v3) = dstK (m ((c : Thread nD τ).loc main_arg1)) := by
    past_stretch; exact (carried6 m ρ c).dst
  exact (congrArg₂ (sumInto128 (F := Ideal)) hg hd).trans (sumInto128_gather _ _)

theorem column8 (c : Dev nD) : W8 m ρ c (Proc.devRef .tc main_v21)
    = shapeCast S50000x1 (normK (F := Ideal) (dstK (m ((c : Thread nD τ).loc main_arg1)))) shapeCasts_S50000_S50000x1 := by
  refine (Reads.columnDst1 _).trans ?_
  refine congrArg (fun n : FVec Ideal S50000 .f32 => shapeCast S50000x1 n shapeCasts_S50000_S50000x1) ?_
  past_stretch; exact (carried6 m ρ c).wDst

theorem biasRow8 (c : Dev nD) : W8 m ρ c (Proc.devRef .tc main_v22)
    = shapeCast S1x128 (m ((c : Thread nD τ).loc main_arg3)) shapeCasts_S128_S1x128 := by
  refine (Reads.biasRow1 _).trans ?_
  refine congrArg (fun b : FVec Ideal S128 .f32 => shapeCast S1x128 b shapeCasts_S128_S1x128) ?_
  past_stretch; exact (carried6 m ρ c).b1

/-! ## Region 1, the stretch after it, region 2 -/

/-- The first layer with its maximum with zero. -/
abbrev layer1 (c : Dev nD) : FVec Ideal S50000x128 .f32 :=
  GraphSpec.relu128 (GraphSpec.finish128 (GraphSpec.aggregate128 (product1 m c) (m ((c : Thread nD τ).loc main_arg1))) (normK (F := Ideal) (dstK (m ((c : Thread nD τ).loc main_arg1)))) (m ((c : Thread nD τ).loc main_arg3)))

theorem layer1_eq (hs : ∀ c : Dev nD, Guard.SourcesInRange (srcK (m ((c : Thread nD τ).loc main_arg1)))) (c : Dev nD) : W9 m ρ c (Proc.devRef .tc main_v23) = layer1 m c := by
  refine (W9_arr m ρ c 3).trans ?_
  refine (Region1.value (V8 m ρ) c (normK (F := Ideal) (dstK (m ((c : Thread nD τ).loc main_arg1)))) (m ((c : Thread nD τ).loc main_arg3)) (column8 m ρ c) (biasRow8 m ρ c)).trans ?_
  exact congrArg (fun a => GraphSpec.relu128 (GraphSpec.finish128 a (normK (F := Ideal) (dstK (m ((c : Thread nD τ).loc main_arg1)))) (m ((c : Thread nD τ).loc main_arg3)))) (summed1_eq m ρ hs c)

theorem carried9 (c : Dev nD) : Carried m c (W9 m ρ c) :=
  let k := carried8 m ρ c
  { src := (W9_of_ne m ρ c main_v1 (by decide)).trans k.src
    dst := (W9_of_ne m ρ c main_v3 (by decide)).trans k.dst
    wSrc := (W9_of_ne m ρ c main_v12 (by decide)).trans k.wSrc
    wDst := (W9_of_ne m ρ c main_v14 (by decide)).trans k.wDst
    b1 := (W9_of_ne m ρ c main_arg3 (by decide)).trans k.b1
    w2 := (W9_of_ne m ρ c main_arg4 (by decide)).trans k.w2
    b2 := (W9_of_ne m ρ c main_arg5 (by decide)).trans k.b2 }

theorem carried10 (c : Dev nD) : Carried m c (W10 m ρ c) :=
  let k := carried9 m ρ c
  { src := by past_stretch; exact k.src
    dst := by past_stretch; exact k.dst
    wSrc := by past_stretch; exact k.wSrc
    wDst := by past_stretch; exact k.wDst
    b1 := by past_stretch; exact k.b1
    w2 := by past_stretch; exact k.w2
    b2 := by past_stretch; exact k.b2 }

theorem layer1_10 (hs : ∀ c : Dev nD, Guard.SourcesInRange (srcK (m ((c : Thread nD τ).loc main_arg1)))) (c : Dev nD) : W10 m ρ c (Proc.devRef .tc main_v23) = layer1 m c := by
  past_stretch; exact layer1_eq m ρ hs c

theorem column10 (c : Dev nD) : W10 m ρ c (Proc.devRef .tc main_v24)
    = shapeCast S50000x1 (normK (F := Ideal) (srcK (m ((c : Thread nD τ).loc main_arg1)))) shapeCasts_S50000_S50000x1 := by
  refine (Reads.columnSrc2 _).trans ?_
  exact congrArg (fun n : FVec Ideal S50000 .f32 => shapeCast S50000x1 n shapeCasts_S50000_S50000x1) (carried9 m ρ c).wSrc

/-- The second layer's scaled product. -/
abbrev product2 (c : Dev nD) : FVec Ideal S50000x47 .f32 :=
  GraphSpec.transform47 (layer1 m c) (normK (F := Ideal) (srcK (m ((c : Thread nD τ).loc main_arg1)))) (m ((c : Thread nD τ).loc main_arg4))

theorem product2_eq (hs : ∀ c : Dev nD, Guard.SourcesInRange (srcK (m ((c : Thread nD τ).loc main_arg1)))) (c : Dev nD) : W11 m ρ c (Proc.devRef .tc main_v25) = product2 m c := by
  refine (W11_arr m ρ c 3).trans ?_
  refine (Region2.value (V10 m ρ) c (normK (F := Ideal) (srcK (m ((c : Thread nD τ).loc main_arg1)))) (column10 m ρ c)).trans ?_
  exact congrArg₂ (fun x W => GraphSpec.transform47 x (normK (F := Ideal) (srcK (m ((c : Thread nD τ).loc main_arg1)))) W) (layer1_10 m ρ hs c) (carried10 m ρ c).w2

theorem carried11 (c : Dev nD) : Carried m c (W11 m ρ c) :=
  let k := carried10 m ρ c
  { src := (W11_of_ne m ρ c main_v1 (by decide)).trans k.src
    dst := (W11_of_ne m ρ c main_v3 (by decide)).trans k.dst
    wSrc := (W11_of_ne m ρ c main_v12 (by decide)).trans k.wSrc
    wDst := (W11_of_ne m ρ c main_v14 (by decide)).trans k.wDst
    b1 := (W11_of_ne m ρ c main_arg3 (by decide)).trans k.b1
    w2 := ((W11_arr m ρ c 2).trans (((dat2 (V10 m ρ) c).arrAt_in 2 rfl _).trans (A_eq2 (V10 m ρ) c 2))).trans k.w2
    b2 := (W11_of_ne m ρ c main_arg5 (by decide)).trans k.b2 }

/-! ## The last stretches and region 3 -/

theorem summed2_eq (hs : ∀ c : Dev nD, Guard.SourcesInRange (srcK (m ((c : Thread nD τ).loc main_arg1)))) (c : Dev nD) : W13 m ρ c (Proc.devRef .tc main_v29) = GraphSpec.aggregate47 (product2 m c) (m ((c : Thread nD τ).loc main_arg1)) := by
  refine (Reads.summed47 _).trans ?_
  have hg : W12 m ρ c (Proc.devRef .tc main_v26)
      = Host.gather gather_S50000x47_S800000x1_S800000x47_1_0_n_n_0_1_147 (product2 m c) (wrapK (srcK (m ((c : Thread nD τ).loc main_arg1)))) := by
    refine (Reads.gathered47 _).trans ?_
    refine (congrArg₂ (gatherRows47 (F := Ideal)) (product2_eq m ρ hs c) (carried11 m ρ c).src).trans ?_
    exact Guard.gatherRows47_eq _ _ (hs c)
  have hd : W12 m ρ c (Proc.devRef .tc main_v3) = dstK (m ((c : Thread nD τ).loc main_arg1)) := by
    past_stretch; exact (carried11 m ρ c).dst
  exact (congrArg₂ (sumInto47 (F := Ideal)) hg hd).trans (sumInto47_gather _ _)

theorem column13 (c : Dev nD) : W13 m ρ c (Proc.devRef .tc main_v30)
    = shapeCast S50000x1 (normK (F := Ideal) (dstK (m ((c : Thread nD τ).loc main_arg1)))) shapeCasts_S50000_S50000x1 := by
  refine (Reads.columnDst3 _).trans ?_
  refine congrArg (fun n : FVec Ideal S50000 .f32 => shapeCast S50000x1 n shapeCasts_S50000_S50000x1) ?_
  past_stretch; exact (carried11 m ρ c).wDst

theorem biasRow13 (c : Dev nD) : W13 m ρ c (Proc.devRef .tc main_v31)
    = shapeCast S1x47 (m ((c : Thread nD τ).loc main_arg5)) shapeCasts_S47_S1x47 := by
  refine (Reads.biasRow3 _).trans ?_
  refine congrArg (fun b : FVec Ideal S47 .f32 => shapeCast S1x47 b shapeCasts_S47_S1x47) ?_
  past_stretch; exact (carried11 m ρ c).b2

/-- THE RESULT: at the last boundary the result buffer holds the network of the six argument arrays. -/
theorem result_eq (hs : ∀ c : Dev nD, Guard.SourcesInRange (srcK (m ((c : Thread nD τ).loc main_arg1)))) (c : Dev nD) : W14 m ρ c (Proc.devRef .tc main_v32)
    = GraphSpec.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W14_arr m ρ c 3).trans ?_
  refine (Region3.value (V13 m ρ) c (normK (F := Ideal) (dstK (m ((c : Thread nD τ).loc main_arg1)))) (m ((c : Thread nD τ).loc main_arg5)) (column13 m ρ c) (biasRow13 m ρ c)).trans ?_
  refine (congrArg (fun a => GraphSpec.finish47 a (normK (F := Ideal) (dstK (m ((c : Thread nD τ).loc main_arg1)))) (m ((c : Thread nD τ).loc main_arg5))) (summed2_eq m ρ hs c)).trans ?_
  simp only [normK_eq, srcK_eq, dstK_eq]
  rfl

end Cert.KernelIdeal.Chain

end
-- ==== Proof.RefValue.lean ====
/-
  The reference's run, read: its result array is the network of the specification at the launch contents of the
  six arguments.

  The reference is a straight line of host operations; its generated run states the result as the operations'
  composed term of the arguments. The specification was spelt with the same operations in the same arrangement,
  so that term is the specification's by unfolding the named pieces.
-/
import proofs.«410354_j42021960024156_1_alg».proof.Proof.Gen.ReferenceIdeal.Run
import proofs.«410354_j42021960024156_1_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The run's composed term is the network of the argument arrays. -/
theorem result_eq (m : (ℓ : Loc nD τ sig) → Buf (Elt F) ℓ) (c : Dev nD) :
    Cert.ReferenceIdeal.Value.res_main_v55 m c
      = GraphSpec.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v55 GraphSpec.network GraphSpec.hidden GraphSpec.finish47 GraphSpec.aggregate47
    GraphSpec.transform47 GraphSpec.relu128 GraphSpec.finish128 GraphSpec.aggregate128 GraphSpec.transform128
    GraphSpec.normOf GraphSpec.wrapOf GraphSpec.srcOf GraphSpec.dstOf
  rfl

/-- Every weakly fair execution of the reference terminates with the result array at the network of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = GraphSpec.network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq m c), (h c).2⟩)
    (Cert.ReferenceIdeal.Value.run (F := F) m ρ)

end Cert.ReferenceIdeal.RefValue

end
-- ==== Proof.lean ====
/-
  A two-layer graph convolution: a Pallas program of four regions (row-scaled matrix product, scale-shift-and-clip,
  and the same pair again for the second layer) with the edge-indexed gather and the sum into the destinations on
  the host between them, against the plain jnp reference.

  Over the extended reals the two programs are the same function of the six arguments wherever every source index
  lies in -50000 … 49999: the casts to bf16 in front of the kernel's matrix products are the identity, a product
  into a zero accumulator is the host's product, and every other operation is the reference's own. Outside that
  range they differ: the reference's gather clamps an out-of-range row index, the kernel's gather replaces the row
  by a not-a-number pattern; the precondition (every float input finite, every source in range) excludes exactly
  the inputs at which the reference itself indexes out of range. Finiteness is never used: no law here moves a
  factor across a sum.

  The three frames are the generated ones (the reference's is its generated run with the result dropped); nothing
  was rewritten by the ideal pass, so there is nothing to preserve; the value claim puts the kernel program's run,
  with the result array read off the last boundary (`Chain.result_eq`), beside the reference's run, both at the
  network of the specification.
-/
import proofs.«410354_j42021960024156_1_alg».proof.Defs
import proofs.«410354_j42021960024156_1_alg».proof.Proof.Gen.Kernel
import proofs.«410354_j42021960024156_1_alg».proof.Proof.Gen.Kernel.Skeleton
import proofs.«410354_j42021960024156_1_alg».proof.Proof.Gen.Kernel.Launch
import proofs.«410354_j42021960024156_1_alg».proof.Proof.Gen.Kernel.Points
import proofs.«410354_j42021960024156_1_alg».proof.Proof.Gen.Kernel.Frame
import proofs.«410354_j42021960024156_1_alg».proof.Proof.Gen.KernelIdeal
import proofs.«410354_j42021960024156_1_alg».proof.Proof.Gen.KernelIdeal.Skeleton
import proofs.«410354_j42021960024156_1_alg».proof.Proof.Gen.KernelIdeal.Launch
import proofs.«410354_j42021960024156_1_alg».proof.Proof.Gen.KernelIdeal.Points
import proofs.«410354_j42021960024156_1_alg».proof.Proof.Gen.KernelIdeal.Frame
import proofs.«410354_j42021960024156_1_alg».proof.Proof.Gen.ReferenceIdeal
import proofs.«410354_j42021960024156_1_alg».proof.Proof.Gen.Pre_finite_inputs
import proofs.«410354_j42021960024156_1_alg».proof.Proof.Launch
import proofs.«410354_j42021960024156_1_alg».proof.Proof.Chain
import proofs.«410354_j42021960024156_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the network of the (agreeing) arguments. -/
theorem algebraic : Cert.algebraic_KernelIdeal_ReferenceIdeal := by
  intro m ρ m' ρ' hpre hagree
  have hs : ∀ c : Dev Cert.KernelIdeal.nD, Cert.Guard.SourcesInRange (Cert.KernelOps.srcK (m ((c.tc : Thread Cert.KernelIdeal.nD Cert.KernelIdeal.τ).loc Cert.KernelIdeal.main_arg1))) :=
    fun c => Cert.Guard.sources_of_pre _ _ _ _ _ _ (hpre c)
  refine ⟨fun c => Cert.GraphSpec.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result_eq m ρ hs c), (h c).2⟩)
      (Cert.KernelIdeal.Launched.run_result (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
